-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x16 : Shape := ⟨2, ![1000000, 16]⟩
abbrev S1x32 : Shape := ⟨2, ![1, 32]⟩
abbrev S1000000 : Shape := ⟨1, ![1000000]⟩
abbrev S64x64 : Shape := ⟨2, ![64, 64]⟩
abbrev S16x64 : Shape := ⟨2, ![16, 64]⟩
abbrev S32x64 : Shape := ⟨2, ![32, 64]⟩
abbrev S128x1 : Shape := ⟨2, ![128, 1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S1x32 : S_.BroadcastsInDim S1x32 (![] : Fin 0 → Fin S1x32.rank)
  reducesTo_S1x32_S_d0_1 : S1x32.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S32x64 : S_.BroadcastsInDim S32x64 (![] : Fin 0 → Fin S32x64.rank)
  reducesTo_S32x64_S_d0_1 : S32x64.ReducesTo [0, 1] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg8 : FVec F S128x1 .f32) (main_arg9 : FVec F S128x1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  main_v43

def fn_part1 {F : FTy → Type} [FloatOps F] (main_arg5 : FVec F S64x64 .f32) (main_arg6 : FVec F S16x64 .f32) (main_arg7 : FVec F S32x64 .f32) (main_arg8 : FVec F S128x1 .f32) (main_arg9 : FVec F S128x1 .f32) (main_v13 : IVec S_ 1) (main_v16 : IVec S1000000x16 1) : IVec S_ 1 :=
  let main_c_5 : IVec S_ 1 := constantI S_ 1 1#1
  let main_v17 : IVec S_ 1 := (fun x v => Host.reduce IntOp.andi x v reducesTo_S1000000x16_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_v33

def fn {F : FTy → Type} [FloatOps F] (main_arg0 : FVec F S1000000x64 .f32) (main_arg1 : FVec F S1000000x16 .f32) (main_arg2 : FVec F S1x32 .f32) (main_arg3 : FVec F S1000000x16 .f32) (main_arg4 : IVec S1000000 32) (main_arg5 : FVec F S64x64 .f32) (main_arg6 : FVec F S16x64 .f32) (main_arg7 : FVec F S32x64 .f32) (main_arg8 : FVec F S128x1 .f32) (main_arg9 : FVec F S128x1 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1000000x16 .f32 := Host.absf main_arg3
  let main_cst_4 : FVec F S_ .f32 := constant S_ .f32 0x7F800000#32
  let main_v15 : FVec F S1000000x16 .f32 := broadcastInDim S1000000x16 ![] bcast_S_S1000000x16 main_cst_4
  let main_v16 : IVec S1000000x16 1 := cmpf .olt main_v14 main_v15
  fn_part1 (F := F) main_arg5 main_arg6 main_arg7 main_arg8 main_arg9 main_v13 main_v16
-- ==== Kernel.lean ====
abbrev S1000000x64 : Shape := ⟨2, ![1000000, 64]⟩
abbrev S1000000x16 : Shape := ⟨2, ![1000000, 16]⟩
abbrev S1x32 : Shape := ⟨2, ![1, 32]⟩
abbrev S1000000 : Shape := ⟨1, ![1000000]⟩
abbrev S64x64 : Shape := ⟨2, ![64, 64]⟩
abbrev S16x64 : Shape := ⟨2, ![16, 64]⟩
abbrev S32x64 : Shape := ⟨2, ![32, 64]⟩
abbrev S128x1 : Shape := ⟨2, ![128, 1]⟩
abbrev S64x1 : Shape := ⟨2, ![64, 1]⟩
abbrev S1x64 : Shape := ⟨2, ![1, 64]⟩
abbrev S1x1 : Shape := ⟨2, ![1, 1]⟩
abbrev S1x2 : Shape := ⟨2, ![1, 2]⟩
abbrev S16x1 : Shape := ⟨2, ![16, 1]⟩
abbrev S1x16 : Shape := ⟨2, ![1, 16]⟩
abbrev S1000000x1 : Shape := ⟨2, ![1000000, 1]⟩
abbrev S50000x64 : Shape := ⟨2, ![50000, 64]⟩
abbrev S50000x16 : Shape := ⟨2, ![50000, 16]⟩
abbrev S50000x1 : Shape := ⟨2, ![50000, 1]⟩
abbrev S50000 : Shape := ⟨1, ![50000]⟩
abbrev S_ : Shape := ⟨0, ![]⟩

abbrev nBuf : Space → Nat
  | .hbm => 58
  | .vmem => 23
  | .smem => 0
  | _ => 0

abbrev bufTy : (tb : Table) → Fin (tcTables nBuf tb) → BufTy
  | .hbm, ⟨0, _⟩ => ⟨S1000000x64, .f32⟩
  | .hbm, ⟨1, _⟩ => ⟨S1000000x16, .f32⟩
  | .hbm, ⟨2, _⟩ => ⟨S1x32, .f32⟩
  | .hbm, ⟨3, _⟩ => ⟨S1000000x16, .f32⟩
  | .hbm, ⟨4, _⟩ => ⟨S1000000, .i32⟩
  | .hbm, ⟨5, _⟩ => ⟨S64x64, .f32⟩
  | .hbm, ⟨6, _⟩ => ⟨S16x64, .f32⟩
  | .hbm, ⟨7, _⟩ => ⟨S32x64, .f32⟩
  | .hbm, ⟨8, _⟩ => ⟨S128x1, .f32⟩
  | .hbm, ⟨9, _⟩ => ⟨S128x1, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S1x64, .f32⟩
  | .hbm, ⟨15, _⟩ => ⟨S1x1, .f32⟩
  | .hbm, ⟨16, _⟩ => ⟨S1x1, .f32⟩
  | .hbm, ⟨17, _⟩ => ⟨S1x2, .f32⟩
  | .hbm, ⟨18, _⟩ => ⟨S64x1, .f32⟩
  | .hbm, ⟨19, _⟩ => ⟨S1x64, .f32⟩
  | .hbm, ⟨20, _⟩ => ⟨S16x1, .f32⟩
  | .hbm, ⟨21, _⟩ => ⟨S1x16, .f32⟩
  | .hbm, ⟨22, _⟩ => ⟨S1000000x1, .f32⟩
  | .hbm, ⟨23, _⟩ => ⟨S1000000x1, .f32⟩
  | .hbm, ⟨24, _⟩ => ⟨S1000000, .f32⟩
  | .hbm, ⟨25, _⟩ => ⟨S1000000, .f32⟩
  | .hbm, ⟨26, _⟩ => ⟨S_, .f32⟩
  | .hbm, ⟨27, _⟩ => ⟨S1000000, .f32⟩
  | .hbm, ⟨28, _⟩ => ⟨S1000000x1, .i32⟩
  | .hbm, ⟨29, _⟩ => ⟨S1000000, .f32⟩
  | .hbm, ⟨30, _⟩ => ⟨S_, .f32⟩
  | .hbm, ⟨31, _⟩ => ⟨S1000000, .f32⟩
  | .hbm, ⟨32, _⟩ => ⟨S1000000x1, .i32⟩
  | .hbm, ⟨33, _⟩ => ⟨S1000000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000, .f32⟩
  | .hbm, ⟨43, _⟩ => ⟨S1000000x1, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000, .f32⟩
  | .hbm, ⟨53, _⟩ => ⟨S1000000x1, .f32⟩
  | .hbm, ⟨54, _⟩ => ⟨S1000000x1, .f32⟩
  | .hbm, ⟨55, _⟩ => ⟨S1000000x1, .f32⟩
  | .hbm, ⟨56, _⟩ => ⟨S1000000, .f32⟩
  | .hbm, ⟨57, _⟩ => ⟨S1000000, .f32⟩
  | .local _ .vmem, ⟨0, _⟩ => ⟨S50000x64, .f32⟩
  | .local _ .vmem, ⟨1, _⟩ => ⟨S50000x64, .f32⟩
  | .local _ .vmem, ⟨2, _⟩ => ⟨S50000x16, .f32⟩
  | .local _ .vmem, ⟨3, _⟩ => ⟨S50000x16, .f32⟩
  | .local _ .vmem, ⟨4, _⟩ => ⟨S1x64, .f32⟩
  | .local _ .vmem, ⟨5, _⟩ => ⟨S1x16, .f32⟩
  | .local _ .vmem, ⟨6, _⟩ => ⟨S1x2, .f32⟩
  | .local _ .vmem, ⟨7, _⟩ => ⟨S50000x1, .f32⟩
  | .local _ .vmem, ⟨8, _⟩ => ⟨S50000x1, .f32⟩
  | .local _ .vmem, ⟨9, _⟩ => ⟨S50000x1, .f32⟩
  | .local _ .vmem, ⟨10, _⟩ => ⟨S50000x1, .f32⟩
  | .local _ .vmem, ⟨11, _⟩ => ⟨S50000x1, .f32⟩
  | .local _ .vmem, ⟨12, _⟩ => ⟨S50000x1, .f32⟩
  | .local _ .vmem, ⟨13, _⟩ => ⟨S50000x1, .f32⟩
  | .local _ .vmem, ⟨14, _⟩ => ⟨S50000x1, .f32⟩
  | .local _ .vmem, ⟨15, _⟩ => ⟨S50000x1, .f32⟩
  | .local _ .vmem, ⟨16, _⟩ => ⟨S50000x1, .f32⟩
  | .local _ .vmem, ⟨17, _⟩ => ⟨S50000x1, .f32⟩
  | .local _ .vmem, ⟨18, _⟩ => ⟨S50000x1, .f32⟩
  | .local _ .vmem, ⟨19, _⟩ => ⟨S50000x1, .f32⟩
  | .local _ .vmem, ⟨20, _⟩ => ⟨S50000x1, .f32⟩
  | .local _ .vmem, ⟨21, _⟩ => ⟨S50000x1, .f32⟩
  | .local _ .vmem, ⟨22, _⟩ => ⟨S50000x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S50000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S50000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S50000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S50000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S50000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S50000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S50000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S50000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S50000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S128x1_S64x1_0_0 : S128x1.Slices ![0, 0] S64x1
  slices_S128x1_S64x1_64_0 : S128x1.Slices ![64, 0] S64x1
  concatenates_S1x1_S1x1_S1x2_d1 : Shape.Concatenates [S1x1, S1x1] S1x2 1
  shapeCasts_S64x1_S1x64 : S64x1.ShapeCasts S1x64
  shapeCasts_S16x1_S1x16 : S16x1.ShapeCasts S1x16
  inb_S50000x64_S50000x64_0_0 : ∀ a, (![0, 0] : Fin 2 → Nat) a + S50000x64.size a ≤ S50000x64.size a
  h_S50000x64 : 0 < S50000x64.numel
  inb_S50000x16_S50000x16_0_0 : ∀ a, (![0, 0] : Fin 2 → Nat) a + S50000x16.size a ≤ S50000x16.size a
  h_S50000x16 : 0 < S50000x16.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x64_S50000x64 : S1x64.Broadcasts S50000x64
  reduces_S50000x64_S50000 : S50000x64.Reduces [1] S50000
  shapeCasts_S50000_S50000x1 : S50000.ShapeCasts S50000x1
  slices_S1x2_o0_0_S1x1 : S1x2.Slices ![0, 0] S1x1
  inpos_S1x1_p0_0 : ∀ a, (![0, 0] : Fin 2 → Nat) a < S1x1.size a
  broadcasts_S1x16_S50000x16 : S1x16.Broadcasts S50000x16
  reduces_S50000x16_S50000 : S50000x16.Reduces [1] S50000
  slices_S1x2_o0_1_S1x1 : S1x2.Slices ![0, 1] S1x1
  inb_S50000x1_S50000x1_0_0 : ∀ a, (![0, 0] : Fin 2 → Nat) a + S50000x1.size a ≤ S50000x1.size a
  h_S50000x1 : 0 < S50000x1.numel
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S50000x1_S50000x1 : S50000x1.ShapeCasts S50000x1
  dot_S1x32_S32x64_S1x64_1_0_0_1_n_n_wf : DotDims.WF S1x32 S32x64 S1x64 [1] [0] [0] [1] [] []
  dot_S1x64_S64x1_S1x1_1_0_0_1_n_n_wf : DotDims.WF S1x64 S64x1 S1x1 [1] [0] [0] [1] [] []
  dot_S64x64_S64x1_S64x1_1_0_0_1_n_n_wf : DotDims.WF S64x64 S64x1 S64x1 [1] [0] [0] [1] [] []
  dot_S16x64_S64x1_S16x1_1_0_0_1_n_n_wf : DotDims.WF S16x64 S64x1 S16x1 [1] [0] [0] [1] [] []
  scatter_S1000000_S1000000x1_S1000000_n_0_0_1_wf : ScatterDims.WF S1000000 S1000000x1 S1000000 [] [0] [0] 1
  gather_S1000000_S1000000x1_S1000000_n_0_n_n_0_1_1_wf : GatherDims.WF S1000000 S1000000x1 S1000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x64.size a ≤ S1000000x64.size a
  hwx0_0 : ∀ i : grid0.Coords, EltTy.bits .f32 = 32 ∨ (Rect.block (s := S1000000x64) S50000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S50000x16.size a ≤ S1000000x16.size a
  hwx0_1 : ∀ i : grid0.Coords, EltTy.bits .f32 = 32 ∨ (Rect.block (s := S1000000x16) S50000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S50000x1.size a ≤ S1000000x1.size a
  hwx0_5 : ∀ i : grid0.Coords, EltTy.bits .f32 = 32 ∨ (Rect.block (s := S1000000x1) S50000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S50000x1.size a ≤ S1000000x1.size a
  hwx0_6 : ∀ i : grid0.Coords, EltTy.bits .f32 = 32 ∨ (Rect.block (s := S1000000x1) S50000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S50000x1.size a ≤ S1000000x1.size a
  hwx1_0 : ∀ i : grid1.Coords, EltTy.bits .f32 = 32 ∨ (Rect.block (s := S1000000x1) S50000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S50000x1.size a ≤ S1000000x1.size a
  hwx1_1 : ∀ i : grid1.Coords, EltTy.bits .f32 = 32 ∨ (Rect.block (s := S1000000x1) S50000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S50000x1.size a ≤ S1000000x1.size a
  hwx1_2 : ∀ i : grid1.Coords, EltTy.bits .f32 = 32 ∨ (Rect.block (s := S1000000x1) S50000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S50000x1.size a ≤ S1000000x1.size a
  hwx1_3 : ∀ i : grid1.Coords, EltTy.bits .f32 = 32 ∨ (Rect.block (s := S1000000x1) S50000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S50000x1.size a ≤ S1000000x1.size a
  hwx1_4 : ∀ i : grid1.Coords, EltTy.bits .f32 = 32 ∨ (Rect.block (s := S1000000x1) S50000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S50000x1.size a ≤ S1000000x1.size a
  hwx1_5 : ∀ i : grid1.Coords, EltTy.bits .f32 = 32 ∨ (Rect.block (s := S1000000x1) S50000x1.size (cc1_transform_5 i) (hinb1_5 i)).WholeWords (EltTy.packing .f32)

variable [Facts₀]

def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S16x64_S64x1_S16x1_1_0_0_1_n_n : DotDims S16x64 S64x1 S16x1 where
  lhsContracting := [1]
  rhsContracting := [0]
  lhsNonContracting := [0]
  rhsNonContracting := [1]
  lhsBatch := []
  rhsBatch := []
  wf := dot_S16x64_S64x1_S16x1_1_0_0_1_n_n_wf
def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf

abbrev win0_0 : Pipeline.Window sig grid0 :=
  Pipeline.Window.ofSpec (Memref.whole main_arg0) S50000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S50000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S50000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S50000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12_0) S50000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S50000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_1) S50000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S50000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37_0) S50000x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37_1) S50000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000x16 : Shape := ⟨2, ![1000000, 16]⟩
abbrev S1x32 : Shape := ⟨2, ![1, 32]⟩
abbrev S1000000 : Shape := ⟨1, ![1000000]⟩
abbrev S64x64 : Shape := ⟨2, ![64, 64]⟩
abbrev S16x64 : Shape := ⟨2, ![16, 64]⟩
abbrev S32x64 : Shape := ⟨2, ![32, 64]⟩
abbrev S128x1 : Shape := ⟨2, ![128, 1]⟩
abbrev S1x64 : Shape := ⟨2, ![1, 64]⟩
abbrev S64x1 : Shape := ⟨2, ![64, 1]⟩
abbrev S1x1 : Shape := ⟨2, ![1, 1]⟩
abbrev S1000000x1 : Shape := ⟨2, ![1000000, 1]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x16, .f32⟩
  | .hbm, ⟨2, _⟩ => ⟨S1x32, .f32⟩
  | .hbm, ⟨3, _⟩ => ⟨S1000000x16, .f32⟩
  | .hbm, ⟨4, _⟩ => ⟨S1000000, .i32⟩
  | .hbm, ⟨5, _⟩ => ⟨S64x64, .f32⟩
  | .hbm, ⟨6, _⟩ => ⟨S16x64, .f32⟩
  | .hbm, ⟨7, _⟩ => ⟨S32x64, .f32⟩
  | .hbm, ⟨8, _⟩ => ⟨S128x1, .f32⟩
  | .hbm, ⟨9, _⟩ => ⟨S128x1, .f32⟩
  | .hbm, ⟨10, _⟩ => ⟨S1000000x64, .f32⟩
  | .hbm, ⟨11, _⟩ => ⟨S1000000x64, .f32⟩
  | .hbm, ⟨12, _⟩ => ⟨S1x64, .f32⟩
  | .hbm, ⟨13, _⟩ => ⟨S64x1, .f32⟩
  | .hbm, ⟨14, _⟩ => ⟨S1x1, .f32⟩
  | .hbm, ⟨15, _⟩ => ⟨S64x1, .f32⟩
  | .hbm, ⟨16, _⟩ => ⟨S1000000x1, .f32⟩
  | .hbm, ⟨17, _⟩ => ⟨S1000000x1, .f32⟩
  | .hbm, ⟨18, _⟩ => ⟨S1000000x1, .f32⟩
  | .hbm, ⟨19, _⟩ => ⟨S1000000, .f32⟩
  | .hbm, ⟨20, _⟩ => ⟨S_, .f32⟩
  | .hbm, ⟨21, _⟩ => ⟨S_, .f32⟩
  | .hbm, ⟨22, _⟩ => ⟨S1000000, .f32⟩
  | .hbm, ⟨23, _⟩ => ⟨S1000000, .i1⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S1000000, .f32⟩
  | .hbm, ⟨28, _⟩ => ⟨S64x1, .f32⟩
  | .hbm, ⟨29, _⟩ => ⟨S1x1, .f32⟩
  | .hbm, ⟨30, _⟩ => ⟨S64x1, .f32⟩
  | .hbm, ⟨31, _⟩ => ⟨S1000000x1, .f32⟩
  | .hbm, ⟨32, _⟩ => ⟨S1000000x1, .f32⟩
  | .hbm, ⟨33, _⟩ => ⟨S1000000x1, .f32⟩
  | .hbm, ⟨34, _⟩ => ⟨S1000000, .f32⟩
  | .hbm, ⟨35, _⟩ => ⟨S_, .f32⟩
  | .hbm, ⟨36, _⟩ => ⟨S_, .f32⟩
  | .hbm, ⟨37, _⟩ => ⟨S1000000, .f32⟩
  | .hbm, ⟨38, _⟩ => ⟨S1000000, .i1⟩
  | .hbm, ⟨39, _⟩ => ⟨S_, .f32⟩
  | .hbm, ⟨40, _⟩ => ⟨S1000000, .f32⟩
  | .hbm, ⟨41, _⟩ => ⟨S1000000, .f32⟩
  | .hbm, ⟨42, _⟩ => ⟨S1000000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1000000, .f32⟩
  | .hbm, ⟨47, _⟩ => ⟨S1000000, .f32⟩
  | .hbm, ⟨48, _⟩ => ⟨S_, .f32⟩
  | .hbm, ⟨49, _⟩ => ⟨S1000000, .f32⟩
  | .hbm, ⟨50, _⟩ => ⟨S1000000, .f32⟩
  | .hbm, ⟨51, _⟩ => ⟨S1000000, .f32⟩
  | .hbm, ⟨52, _⟩ => ⟨S_, .f32⟩
  | .hbm, ⟨53, _⟩ => ⟨S1000000, .f32⟩
  | .hbm, ⟨54, _⟩ => ⟨S1000000x1, .i32⟩
  | .hbm, ⟨55, _⟩ => ⟨S1000000, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000, .f32⟩
  | .hbm, ⟨65, _⟩ => ⟨S1000000, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1000000, .f32⟩
  | .hbm, ⟨70, _⟩ => ⟨S1000000, .f32⟩
  | .hbm, ⟨71, _⟩ => ⟨S_, .f32⟩
  | .hbm, ⟨72, _⟩ => ⟨S1000000, .f32⟩
  | .hbm, ⟨73, _⟩ => ⟨S1000000, .f32⟩
  | .hbm, ⟨74, _⟩ => ⟨S1000000, .f32⟩
  | .hbm, ⟨75, _⟩ => ⟨S_, .f32⟩
  | .hbm, ⟨76, _⟩ => ⟨S1000000, .f32⟩
  | .hbm, ⟨77, _⟩ => ⟨S1000000x1, .i32⟩
  | .hbm, ⟨78, _⟩ => ⟨S1000000, .f32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000, .f32⟩
  | .hbm, ⟨88, _⟩ => ⟨S1000000, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_cst_1 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c : Ref sig .tc := ⟨.hbm, 56, rfl⟩
abbrev main_v24 : Ref sig .tc := ⟨.hbm, 57, rfl⟩
abbrev main_v25 : Ref sig .tc := ⟨.hbm, 58, rfl⟩
abbrev main_c_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_5 : Ref sig .tc := ⟨.hbm, 66, rfl⟩
abbrev main_cst_6 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v32 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_8 : Ref sig .tc := ⟨.hbm, 79, rfl⟩
abbrev main_v37 : Ref sig .tc := ⟨.hbm, 80, rfl⟩
abbrev main_v38 : Ref sig .tc := ⟨.hbm, 81, rfl⟩
abbrev main_c_9 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  bcast_S1x1_S1000000x1_0_1 : S1x1.BroadcastsInDim S1000000x1 (![0, 1] : Fin 2 → Fin S1000000x1.rank)
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  dot_S1000000x64_S64x64_S1000000x64_1_0_0_1_n_n_wf : DotDims.WF S1000000x64 S64x64 S1000000x64 [1] [0] [0] [1] [] []
  dot_S1000000x16_S16x64_S1000000x64_1_0_0_1_n_n_wf : DotDims.WF S1000000x16 S16x64 S1000000x64 [1] [0] [0] [1] [] []
  dot_S1x32_S32x64_S1x64_1_0_0_1_n_n_wf : DotDims.WF S1x32 S32x64 S1x64 [1] [0] [0] [1] [] []
  dot_S1x64_S64x1_S1x1_1_0_0_1_n_n_wf : DotDims.WF S1x64 S64x1 S1x1 [1] [0] [0] [1] [] []
  dot_S1000000x64_S64x1_S1000000x1_1_0_0_1_n_n_wf : DotDims.WF S1000000x64 S64x1 S1000000x1 [1] [0] [0] [1] [] []
  scatter_S1000000_S1000000x1_S1000000_n_0_0_1_wf : ScatterDims.WF S1000000 S1000000x1 S1000000 [] [0] [0] 1
  gather_S1000000_S1000000x1_S1000000_n_0_n_n_0_1_1_wf : GatherDims.WF S1000000 S1000000x1 S1000000 [] [0] [] [0] [] 1 ![1]

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S1000000_S1000000x1_S1000000_n_0_0_1 : ScatterDims S1000000 S1000000x1 S1000000 where
  updateWindowDims := []
  insertedWindowDims := [0]
  scatterDimsToOperandDims := [0]
  indexVectorDim := 1
  wf := scatter_S1000000_S1000000x1_S1000000_n_0_0_1_wf
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf

class Facts : Prop extends Facts₀ where

variable [Facts]
-- ==== Proof.RDefs.lean ====
/-
  The reference's result as named functions of its argument arrays: the graph bias, the pre-activation
  (bias + projected features times the feature half of the attention vector), the score (leaky slope, clamp,
  exponential), the per-segment sums gathered back per row, and the normalized scores.
-/
import proofs.«406015_j68745246540453_1_alg».proof.Proof.Gen.ReferenceIdeal
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.ReferenceIdeal.Hand
open Cert.ReferenceIdeal

/-- per-segment sums gathered back per row (the reference's spelling of the shared chain). -/
def den (s : FVec Ideal S1000000 .f32) (seg : IVec S1000000 32) : FVec Ideal S1000000 .f32 :=
  Host.gather gather_S1000000_S1000000x1_S1000000_n_0_n_n_0_1_1
    (Host.scatterAdd scatter_S1000000_S1000000x1_S1000000_n_0_0_1
      (broadcastInDim S1000000 ![] Facts₀.bcast_S_S1000000 (constant S_ .f32 0x00000000#32))
      (broadcastInDim S1000000x1 ![0] Facts₀.bcast_S1000000_S1000000x1_0 seg) s)
    (broadcastInDim S1000000x1 ![0] Facts₀.bcast_S1000000_S1000000x1_0
      (select (cmpi .slt seg (broadcastInDim S1000000 ![] Facts₀.bcast_S_S1000000 (constantI S_ 32 0#32)))
        (addi seg (broadcastInDim S1000000 ![] Facts₀.bcast_S_S1000000 (constantI S_ 32 1000000#32))) seg))

/-- the graph bias: (graph_fts · W_graph) · the graph half of an attention vector -/
def gbias (g : FVec Ideal S1x32 .f32) (Wg : FVec Ideal S32x64 .f32) (a : FVec Ideal S128x1 .f32) : FVec Ideal S1x1 .f32 :=
  Host.dotGeneral (F := Ideal) dot_S1x64_S64x1_S1x1_1_0_0_1_n_n none (Host.dotGeneral (F := Ideal) dot_S1x32_S32x64_S1x64_1_0_0_1_n_n none g Wg)
    (extractStridedSlice S64x1 ![0, 0] a Facts₀.slices_S128x1_S64x1_0_0)

/-- the pre-activation: bias + (projected features) · the feature half of the attention vector, as a vector of rows -/
def preact (h : FVec Ideal S1000000x64 .f32) (b : FVec Ideal S1x1 .f32) (a : FVec Ideal S128x1 .f32) : FVec Ideal S1000000 .f32 :=
  shapeCast S1000000 (addf (broadcastInDim S1000000x1 ![0, 1] Facts₀.bcast_S1x1_S1000000x1_0_1 b)
    (Host.dotGeneral (F := Ideal) dot_S1000000x64_S64x1_S1000000x1_1_0_0_1_n_n none h
      (extractStridedSlice S64x1 ![64, 0] a Facts₀.slices_S128x1_S64x1_64_0))) Facts₀.shapeCasts_S1000000x1_S1000000

/-- leaky slope, clamp, exponential, as the reference's operations on a vector of rows -/
def score (z : FVec Ideal S1000000 .f32) : FVec Ideal S1000000 .f32 :=
  Host.exp (minimumf (broadcastInDim S1000000 ![] Facts₀.bcast_S_S1000000 (id (constant S_ .f32 0x40000000#32)))
    (maximumf (broadcastInDim S1000000 ![] Facts₀.bcast_S_S1000000 (id (constant S_ .f32 0xC0000000#32)))
      (select (cmpf .oge z (broadcastInDim S1000000 ![] Facts₀.bcast_S_S1000000 (constant S_ .f32 0x00000000#32))) z
        (mulf (broadcastInDim S1000000 ![] Facts₀.bcast_S_S1000000 (id (constant S_ .f32 0x3E4CCCCD#32))) z))))

def nodeOut (x : FVec Ideal S1000000x64 .f32) (W : FVec Ideal S64x64 .f32) (g : FVec Ideal S1x32 .f32) (Wg : FVec Ideal S32x64 .f32)
    (a : FVec Ideal S128x1 .f32) (seg : IVec S1000000 32) : FVec Ideal S1000000 .f32 :=
  Host.divf (score (preact (Host.dotGeneral (F := Ideal) dot_S1000000x64_S64x64_S1000000x64_1_0_0_1_n_n none x W) (gbias g Wg a) a))
    (den (score (preact (Host.dotGeneral (F := Ideal) dot_S1000000x64_S64x64_S1000000x64_1_0_0_1_n_n none x W) (gbias g Wg a) a)) seg)

def edgeOut (x : FVec Ideal S1000000x16 .f32) (W : FVec Ideal S16x64 .f32) (g : FVec Ideal S1x32 .f32) (Wg : FVec Ideal S32x64 .f32)
    (a : FVec Ideal S128x1 .f32) (seg : IVec S1000000 32) : FVec Ideal S1000000 .f32 :=
  Host.divf (score (preact (Host.dotGeneral (F := Ideal) dot_S1000000x16_S16x64_S1000000x64_1_0_0_1_n_n none x W) (gbias g Wg a) a))
    (den (score (preact (Host.dotGeneral (F := Ideal) dot_S1000000x16_S16x64_S1000000x64_1_0_0_1_n_n none x W) (gbias g Wg a) a)) seg)

end Cert.ReferenceIdeal.Hand

end
-- ==== Proof.RRun.lean ====
/-
  The reference program's run, written out: its @main is a straight line of host operations once each call of the
  outlined functions (leaky_relu, its inner where, clip) is unfolded at its call site over that call's own buffers, so
  every weakly fair execution terminates with each buffer at the fold of those operations over the launch contents; read
  at the two result buffers the fold is the named normalized scores of the argument arrays, and at an argument's buffer it
  is the argument unchanged.
-/
import proofs.«406015_j68745246540453_1_alg».proof.Proof.RDefs
import Idealize.ShloMosaic.Lib.StableHlo.Run
import Idealize.ShloMosaic.Lib.Tactic
import Idealize.ShloMosaic.Lib.Pipeline.Regions

set_option maxRecDepth 16384

noncomputable section

open Idealize.ShloMosaic Idealize.ShloMosaic.TcCoe Idealize.SL.Sem Idealize.ShloMosaic.ValueIdx
open scoped BigOperators

namespace Cert.ReferenceIdeal.Hand
open Cert.ReferenceIdeal Idealize.ShloMosaic.StableHlo
open Cert.ReferenceIdeal.Facts₀

/-- @main's operations in order, the callees' operations listed at their call sites. -/
abbrev ops : List (HloOp τ sig (Elt Ideal)) :=
  [ binary main_arg0 main_arg5 main_v0 ((fun l r => Host.dotGeneral (F := Ideal) (φ₁ := .f32) (φ₂ := .f32) dot_S1000000x64_S64x64_S1000000x64_1_0_0_1_n_n none l r) : (⟨S1000000x64, .f32⟩ : BufTy).Contents (Elt Ideal) → (⟨S64x64, .f32⟩ : BufTy).Contents (Elt Ideal) → (⟨S1000000x64, .f32⟩ : BufTy).Contents (Elt Ideal)),
    binary main_arg3 main_arg6 main_v1 ((fun l r => Host.dotGeneral (F := Ideal) (φ₁ := .f32) (φ₂ := .f32) dot_S1000000x16_S16x64_S1000000x64_1_0_0_1_n_n none l r) : (⟨S1000000x16, .f32⟩ : BufTy).Contents (Elt Ideal) → (⟨S16x64, .f32⟩ : BufTy).Contents (Elt Ideal) → (⟨S1000000x64, .f32⟩ : BufTy).Contents (Elt Ideal)),
    binary main_arg2 main_arg7 main_v2 ((fun l r => Host.dotGeneral (F := Ideal) (φ₁ := .f32) (φ₂ := .f32) dot_S1x32_S32x64_S1x64_1_0_0_1_n_n none l r) : (⟨S1x32, .f32⟩ : BufTy).Contents (Elt Ideal) → (⟨S32x64, .f32⟩ : BufTy).Contents (Elt Ideal) → (⟨S1x64, .f32⟩ : BufTy).Contents (Elt Ideal)),
    unary main_arg8 main_v3 ((extractStridedSlice S64x1 ![0, 0] · slices_S128x1_S64x1_0_0) : (⟨S128x1, .f32⟩ : BufTy).Contents (Elt Ideal) → (⟨S64x1, .f32⟩ : BufTy).Contents (Elt Ideal)),
    binary main_v2 main_v3 main_v4 ((fun l r => Host.dotGeneral (F := Ideal) (φ₁ := .f32) (φ₂ := .f32) dot_S1x64_S64x1_S1x1_1_0_0_1_n_n none l r) : (⟨S1x64, .f32⟩ : BufTy).Contents (Elt Ideal) → (⟨S64x1, .f32⟩ : BufTy).Contents (Elt Ideal) → (⟨S1x1, .f32⟩ : BufTy).Contents (Elt Ideal)),
    unary main_arg8 main_v5 ((extractStridedSlice S64x1 ![64, 0] · slices_S128x1_S64x1_64_0) : (⟨S128x1, .f32⟩ : BufTy).Contents (Elt Ideal) → (⟨S64x1, .f32⟩ : BufTy).Contents (Elt Ideal)),
    binary main_v0 main_v5 main_v6 ((fun l r => Host.dotGeneral (F := Ideal) (φ₁ := .f32) (φ₂ := .f32) dot_S1000000x64_S64x1_S1000000x1_1_0_0_1_n_n none l r) : (⟨S1000000x64, .f32⟩ : BufTy).Contents (Elt Ideal) → (⟨S64x1, .f32⟩ : BufTy).Contents (Elt Ideal) → (⟨S1000000x1, .f32⟩ : BufTy).Contents (Elt Ideal)),
    unary main_v4 main_v7 (broadcastInDim S1000000x1 ![0, 1] bcast_S1x1_S1000000x1_0_1 : (⟨S1x1, .f32⟩ : BufTy).Contents (Elt Ideal) → (⟨S1000000x1, .f32⟩ : BufTy).Contents (Elt Ideal)),
    binary main_v7 main_v6 main_v8 (addf (F := Ideal) (φ := .f32) : (⟨S1000000x1, .f32⟩ : BufTy).Contents (Elt Ideal) → (⟨S1000000x1, .f32⟩ : BufTy).Contents (Elt Ideal) → (⟨S1000000x1, .f32⟩ : BufTy).Contents (Elt Ideal)),
    reshape main_v8 main_v9 rfl shapeCasts_S1000000x1_S1000000,
    nullary main_cst (constant (F := Ideal) S_ .f32 0x3E4CCCCD#32),
    TRef.nullary main_call0.cst (constant (F := Ideal) S_ .f32 0x00000000#32),
    TRef.unary main_call0.cst main_call0.v0 (broadcastInDim S1000000 ![] bcast_S_S1000000),
    TRef.binary (.of main_v9) main_call0.v0 main_call0.v1 (cmpf (F := Ideal) (φ := .f32) .oge),
    TRef.unary (.of main_cst) main_call0.v2 id,
    TRef.unary main_call0.v2 main_call0.v3 (broadcastInDim S1000000 ![] bcast_S_S1000000),
    TRef.binary main_call0.v3 (.of main_v9) main_call0.v4 (mulf (F := Ideal) (φ := .f32)),
    TRef.ternary main_call0.v1 (.of main_v9) main_call0.v4 main_call0.call0.v0 select,
    unary main_arg9 main_v11 ((extractStridedSlice S64x1 ![0, 0] · slices_S128x1_S64x1_0_0) : (⟨S128x1, .f32⟩ : BufTy).Contents (Elt Ideal) → (⟨S64x1, .f32⟩ : BufTy).Contents (Elt Ideal)),
    binary main_v2 main_v11 main_v12 ((fun l r => Host.dotGeneral (F := Ideal) (φ₁ := .f32) (φ₂ := .f32) dot_S1x64_S64x1_S1x1_1_0_0_1_n_n none l r) : (⟨S1x64, .f32⟩ : BufTy).Contents (Elt Ideal) → (⟨S64x1, .f32⟩ : BufTy).Contents (Elt Ideal) → (⟨S1x1, .f32⟩ : BufTy).Contents (Elt Ideal)),
    unary main_arg9 main_v13 ((extractStridedSlice S64x1 ![64, 0] · slices_S128x1_S64x1_64_0) : (⟨S128x1, .f32⟩ : BufTy).Contents (Elt Ideal) → (⟨S64x1, .f32⟩ : BufTy).Contents (Elt Ideal)),
    binary main_v1 main_v13 main_v14 ((fun l r => Host.dotGeneral (F := Ideal) (φ₁ := .f32) (φ₂ := .f32) dot_S1000000x64_S64x1_S1000000x1_1_0_0_1_n_n none l r) : (⟨S1000000x64, .f32⟩ : BufTy).Contents (Elt Ideal) → (⟨S64x1, .f32⟩ : BufTy).Contents (Elt Ideal) → (⟨S1000000x1, .f32⟩ : BufTy).Contents (Elt Ideal)),
    unary main_v12 main_v15 (broadcastInDim S1000000x1 ![0, 1] bcast_S1x1_S1000000x1_0_1 : (⟨S1x1, .f32⟩ : BufTy).Contents (Elt Ideal) → (⟨S1000000x1, .f32⟩ : BufTy).Contents (Elt Ideal)),
    binary main_v15 main_v14 main_v16 (addf (F := Ideal) (φ := .f32) : (⟨S1000000x1, .f32⟩ : BufTy).Contents (Elt Ideal) → (⟨S1000000x1, .f32⟩ : BufTy).Contents (Elt Ideal) → (⟨S1000000x1, .f32⟩ : BufTy).Contents (Elt Ideal)),
    reshape main_v16 main_v17 rfl shapeCasts_S1000000x1_S1000000,
    nullary main_cst_0 (constant (F := Ideal) S_ .f32 0x3E4CCCCD#32),
    TRef.nullary main_call1.cst (constant (F := Ideal) S_ .f32 0x00000000#32),
    TRef.unary main_call1.cst main_call1.v0 (broadcastInDim S1000000 ![] bcast_S_S1000000),
    TRef.binary (.of main_v17) main_call1.v0 main_call1.v1 (cmpf (F := Ideal) (φ := .f32) .oge),
    TRef.unary (.of main_cst_0) main_call1.v2 id,
    TRef.unary main_call1.v2 main_call1.v3 (broadcastInDim S1000000 ![] bcast_S_S1000000),
    TRef.binary main_call1.v3 (.of main_v17) main_call1.v4 (mulf (F := Ideal) (φ := .f32)),
    TRef.ternary main_call1.v1 (.of main_v17) main_call1.v4 main_call1.call0.v0 select,
    nullary main_cst_1 (constant (F := Ideal) S_ .f32 0xC0000000#32),
    nullary main_cst_2 (constant (F := Ideal) S_ .f32 0x40000000#32),
    TRef.unary (.of main_cst_1) main_call2.v0 id,
    TRef.unary main_call2.v0 main_call2.v1 (broadcastInDim S1000000 ![] bcast_S_S1000000),
    TRef.binary main_call2.v1 (.of main_v10) main_call2.v2 (maximumf (F := Ideal) (φ := .f32)),
    TRef.unary (.of main_cst_2) main_call2.v3 id,
    TRef.unary main_call2.v3 main_call2.v4 (broadcastInDim S1000000 ![] bcast_S_S1000000),
    TRef.binary main_call2.v4 main_call2.v2 main_call2.v5 (minimumf (F := Ideal) (φ := .f32)),
    unary main_v19 main_v20 (Host.exp (F := Ideal) (φ := .f32) : (⟨S1000000, .f32⟩ : BufTy).Contents (Elt Ideal) → (⟨S1000000, .f32⟩ : BufTy).Contents (Elt Ideal)),
    nullary main_cst_3 (constant (F := Ideal) S_ .f32 0x00000000#32),
    unary main_cst_3 main_v21 (broadcastInDim S1000000 ![] bcast_S_S1000000 : (⟨S_, .f32⟩ : BufTy).Contents (Elt Ideal) → (⟨S1000000, .f32⟩ : BufTy).Contents (Elt Ideal)),
    unary main_arg4 main_v22 (broadcastInDim S1000000x1 ![0] bcast_S1000000_S1000000x1_0 : (⟨S1000000, .i32⟩ : BufTy).Contents (Elt Ideal) → (⟨S1000000x1, .i32⟩ : BufTy).Contents (Elt Ideal)),
    ternary main_v21 main_v22 main_v20 main_v23 ((fun x i u => Host.scatterAdd (F := Ideal) (φ := .f32) scatter_S1000000_S1000000x1_S1000000_n_0_0_1 x i u) : (⟨S1000000, .f32⟩ : BufTy).Contents (Elt Ideal) → (⟨S1000000x1, .i32⟩ : BufTy).Contents (Elt Ideal) → (⟨S1000000, .f32⟩ : BufTy).Contents (Elt Ideal) → (⟨S1000000, .f32⟩ : BufTy).Contents (Elt Ideal)),
    nullary main_c (constantI S_ 32 0#32),
    unary main_c main_v24 (broadcastInDim S1000000 ![] bcast_S_S1000000 : (⟨S_, .i32⟩ : BufTy).Contents (Elt Ideal) → (⟨S1000000, .i32⟩ : BufTy).Contents (Elt Ideal)),
    binary main_arg4 main_v24 main_v25 (cmpi .slt : (⟨S1000000, .i32⟩ : BufTy).Contents (Elt Ideal) → (⟨S1000000, .i32⟩ : BufTy).Contents (Elt Ideal) → (⟨S1000000, .i1⟩ : BufTy).Contents (Elt Ideal)),
    nullary main_c_4 (constantI S_ 32 1000000#32),
    unary main_c_4 main_v26 (broadcastInDim S1000000 ![] bcast_S_S1000000 : (⟨S_, .i32⟩ : BufTy).Contents (Elt Ideal) → (⟨S1000000, .i32⟩ : BufTy).Contents (Elt Ideal)),
    binary main_arg4 main_v26 main_v27 (addi : (⟨S1000000, .i32⟩ : BufTy).Contents (Elt Ideal) → (⟨S1000000, .i32⟩ : BufTy).Contents (Elt Ideal) → (⟨S1000000, .i32⟩ : BufTy).Contents (Elt Ideal)),
    ternary main_v25 main_v27 main_arg4 main_v28 (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)),
    unary main_v28 main_v29 (broadcastInDim S1000000x1 ![0] bcast_S1000000_S1000000x1_0 : (⟨S1000000, .i32⟩ : BufTy).Contents (Elt Ideal) → (⟨S1000000x1, .i32⟩ : BufTy).Contents (Elt Ideal)),
    binary main_v23 main_v29 main_v30 ((fun x i => Host.gather gather_S1000000_S1000000x1_S1000000_n_0_n_n_0_1_1 x i) : (⟨S1000000, .f32⟩ : BufTy).Contents (Elt Ideal) → (⟨S1000000x1, .i32⟩ : BufTy).Contents (Elt Ideal) → (⟨S1000000, .f32⟩ : BufTy).Contents (Elt Ideal)),
    binary main_v20 main_v30 main_v31 (Host.divf (F := Ideal) (φ := .f32) : (⟨S1000000, .f32⟩ : BufTy).Contents (Elt Ideal) → (⟨S1000000, .f32⟩ : BufTy).Contents (Elt Ideal) → (⟨S1000000, .f32⟩ : BufTy).Contents (Elt Ideal)),
    nullary main_cst_5 (constant (F := Ideal) S_ .f32 0xC0000000#32),
    nullary main_cst_6 (constant (F := Ideal) S_ .f32 0x40000000#32),
    TRef.unary (.of main_cst_5) main_call3.v0 id,
    TRef.unary main_call3.v0 main_call3.v1 (broadcastInDim S1000000 ![] bcast_S_S1000000),
    TRef.binary main_call3.v1 (.of main_v18) main_call3.v2 (maximumf (F := Ideal) (φ := .f32)),
    TRef.unary (.of main_cst_6) main_call3.v3 id,
    TRef.unary main_call3.v3 main_call3.v4 (broadcastInDim S1000000 ![] bcast_S_S1000000),
    TRef.binary main_call3.v4 main_call3.v2 main_call3.v5 (minimumf (F := Ideal) (φ := .f32)),
    unary main_v32 main_v33 (Host.exp (F := Ideal) (φ := .f32) : (⟨S1000000, .f32⟩ : BufTy).Contents (Elt Ideal) → (⟨S1000000, .f32⟩ : BufTy).Contents (Elt Ideal)),
    nullary main_cst_7 (constant (F := Ideal) S_ .f32 0x00000000#32),
    unary main_cst_7 main_v34 (broadcastInDim S1000000 ![] bcast_S_S1000000 : (⟨S_, .f32⟩ : BufTy).Contents (Elt Ideal) → (⟨S1000000, .f32⟩ : BufTy).Contents (Elt Ideal)),
    unary main_arg4 main_v35 (broadcastInDim S1000000x1 ![0] bcast_S1000000_S1000000x1_0 : (⟨S1000000, .i32⟩ : BufTy).Contents (Elt Ideal) → (⟨S1000000x1, .i32⟩ : BufTy).Contents (Elt Ideal)),
    ternary main_v34 main_v35 main_v33 main_v36 ((fun x i u => Host.scatterAdd (F := Ideal) (φ := .f32) scatter_S1000000_S1000000x1_S1000000_n_0_0_1 x i u) : (⟨S1000000, .f32⟩ : BufTy).Contents (Elt Ideal) → (⟨S1000000x1, .i32⟩ : BufTy).Contents (Elt Ideal) → (⟨S1000000, .f32⟩ : BufTy).Contents (Elt Ideal) → (⟨S1000000, .f32⟩ : BufTy).Contents (Elt Ideal)),
    nullary main_c_8 (constantI S_ 32 0#32),
    unary main_c_8 main_v37 (broadcastInDim S1000000 ![] bcast_S_S1000000 : (⟨S_, .i32⟩ : BufTy).Contents (Elt Ideal) → (⟨S1000000, .i32⟩ : BufTy).Contents (Elt Ideal)),
    binary main_arg4 main_v37 main_v38 (cmpi .slt : (⟨S1000000, .i32⟩ : BufTy).Contents (Elt Ideal) → (⟨S1000000, .i32⟩ : BufTy).Contents (Elt Ideal) → (⟨S1000000, .i1⟩ : BufTy).Contents (Elt Ideal)),
    nullary main_c_9 (constantI S_ 32 1000000#32),
    unary main_c_9 main_v39 (broadcastInDim S1000000 ![] bcast_S_S1000000 : (⟨S_, .i32⟩ : BufTy).Contents (Elt Ideal) → (⟨S1000000, .i32⟩ : BufTy).Contents (Elt Ideal)),
    binary main_arg4 main_v39 main_v40 (addi : (⟨S1000000, .i32⟩ : BufTy).Contents (Elt Ideal) → (⟨S1000000, .i32⟩ : BufTy).Contents (Elt Ideal) → (⟨S1000000, .i32⟩ : BufTy).Contents (Elt Ideal)),
    ternary main_v38 main_v40 main_arg4 main_v41 (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)),
    unary main_v41 main_v42 (broadcastInDim S1000000x1 ![0] bcast_S1000000_S1000000x1_0 : (⟨S1000000, .i32⟩ : BufTy).Contents (Elt Ideal) → (⟨S1000000x1, .i32⟩ : BufTy).Contents (Elt Ideal)),
    binary main_v36 main_v42 main_v43 ((fun x i => Host.gather gather_S1000000_S1000000x1_S1000000_n_0_n_n_0_1_1 x i) : (⟨S1000000, .f32⟩ : BufTy).Contents (Elt Ideal) → (⟨S1000000x1, .i32⟩ : BufTy).Contents (Elt Ideal) → (⟨S1000000, .f32⟩ : BufTy).Contents (Elt Ideal)),
    binary main_v33 main_v43 main_v44 (Host.divf (F := Ideal) (φ := .f32) : (⟨S1000000, .f32⟩ : BufTy).Contents (Elt Ideal) → (⟨S1000000, .f32⟩ : BufTy).Contents (Elt Ideal) → (⟨S1000000, .f32⟩ : BufTy).Contents (Elt Ideal)) ]

/-- @main is that straight line: with each callee's definition unfolded at its call and each call's record at its
    fields, both sides are the same chain of steps once sequencing is reassociated; checked by computation. -/
private theorem main_eq (c : Dev nD) : main (F := Ideal) c = seq ops := by chain_rfl

/-- The signature scopes no TensorCore buffer and no semaphore. -/
private theorem scopedRefs_eq : (Finset.univ.filter fun b : Ref sig .tc => b.isScoped) = ∅ := by decide
private theorem scopedSems_eq : (Finset.univ.filter fun sm : SemLoc sig => sm.isScoped .tc) = ∅ := by decide

/-- Every operation of the line touches TensorCore references only. -/
private theorem ops_sub : (ops : List (HloOp τ sig (Elt Ideal))).Forall fun op => op.bufs ⊆ tcRefs τ sig :=
  ⟨binary_bufs_sub .., binary_bufs_sub .., binary_bufs_sub .., unary_bufs_sub .., binary_bufs_sub .., unary_bufs_sub ..,
    binary_bufs_sub .., unary_bufs_sub .., binary_bufs_sub .., reshape_bufs_sub .., nullary_bufs_sub .., nullary_bufs_sub ..,
    unary_bufs_sub .., binary_bufs_sub .., unary_bufs_sub .., unary_bufs_sub .., binary_bufs_sub .., ternary_bufs_sub ..,
    unary_bufs_sub .., binary_bufs_sub .., unary_bufs_sub .., binary_bufs_sub .., unary_bufs_sub .., binary_bufs_sub ..,
    reshape_bufs_sub .., nullary_bufs_sub .., nullary_bufs_sub .., unary_bufs_sub .., binary_bufs_sub .., unary_bufs_sub ..,
    unary_bufs_sub .., binary_bufs_sub .., ternary_bufs_sub .., nullary_bufs_sub .., nullary_bufs_sub .., unary_bufs_sub ..,
    unary_bufs_sub .., binary_bufs_sub .., unary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩

theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

-- the fold read at a result buffer: each operation's result at its own buffer is its function of the operands' contents,
-- the typed references' transports are the identity at these literal references, and what is left is the named term by
-- computation; the gather, the scatter-sum, the exponential and the quotient stay folded (the equation never looks inside them)
attribute [local irreducible] Host.gather Host.scatterAdd Host.exp Host.divf in
set_option maxHeartbeats 1000000 in
theorem out31_eq (V : Valuation τ sig (Elt Ideal)) :
    after ops V (main_v31 : DevRef τ sig)
      = nodeOut (V (main_arg0 : DevRef τ sig)) (V (main_arg5 : DevRef τ sig)) (V (main_arg2 : DevRef τ sig))
          (V (main_arg7 : DevRef τ sig)) (V (main_arg8 : DevRef τ sig)) (V (main_arg4 : DevRef τ sig)) := by
  after_results_simp
  simp only [TRef.ofBuf, TRef.toBuf, cast_eq]
  simp only [nodeOut, den, score, preact, gbias]
  rfl

-- the fold read at a result buffer: each operation's result at its own buffer is its function of the operands' contents,
-- the typed references' transports are the identity at these literal references, and what is left is the named term by
-- computation; the gather, the scatter-sum, the exponential and the quotient stay folded (the equation never looks inside them)
attribute [local irreducible] Host.gather Host.scatterAdd Host.exp Host.divf in
set_option maxHeartbeats 1000000 in
theorem out44_eq (V : Valuation τ sig (Elt Ideal)) :
    after ops V (main_v44 : DevRef τ sig)
      = edgeOut (V (main_arg3 : DevRef τ sig)) (V (main_arg6 : DevRef τ sig)) (V (main_arg2 : DevRef τ sig))
          (V (main_arg7 : DevRef τ sig)) (V (main_arg9 : DevRef τ sig)) (V (main_arg4 : DevRef τ sig)) := by
  after_results_simp
  simp only [TRef.ofBuf, TRef.toBuf, cast_eq]
  simp only [edgeOut, den, score, preact, gbias]
  rfl

theorem arg0_eq (V : Valuation τ sig (Elt Ideal)) : after ops V (main_arg0 : DevRef τ sig) = V (main_arg0 : DevRef τ sig) := by after_results_simp
theorem arg1_eq (V : Valuation τ sig (Elt Ideal)) : after ops V (main_arg1 : DevRef τ sig) = V (main_arg1 : DevRef τ sig) := by after_results_simp
theorem arg2_eq (V : Valuation τ sig (Elt Ideal)) : after ops V (main_arg2 : DevRef τ sig) = V (main_arg2 : DevRef τ sig) := by after_results_simp
theorem arg3_eq (V : Valuation τ sig (Elt Ideal)) : after ops V (main_arg3 : DevRef τ sig) = V (main_arg3 : DevRef τ sig) := by after_results_simp
theorem arg4_eq (V : Valuation τ sig (Elt Ideal)) : after ops V (main_arg4 : DevRef τ sig) = V (main_arg4 : DevRef τ sig) := by after_results_simp
theorem arg5_eq (V : Valuation τ sig (Elt Ideal)) : after ops V (main_arg5 : DevRef τ sig) = V (main_arg5 : DevRef τ sig) := by after_results_simp
theorem arg6_eq (V : Valuation τ sig (Elt Ideal)) : after ops V (main_arg6 : DevRef τ sig) = V (main_arg6 : DevRef τ sig) := by after_results_simp
theorem arg7_eq (V : Valuation τ sig (Elt Ideal)) : after ops V (main_arg7 : DevRef τ sig) = V (main_arg7 : DevRef τ sig) := by after_results_simp
theorem arg8_eq (V : Valuation τ sig (Elt Ideal)) : after ops V (main_arg8 : DevRef τ sig) = V (main_arg8 : DevRef τ sig) := by after_results_simp
theorem arg9_eq (V : Valuation τ sig (Elt Ideal)) : after ops V (main_arg9 : DevRef τ sig) = V (main_arg9 : DevRef τ sig) := by after_results_simp

end Cert.ReferenceIdeal.Hand

end
-- ==== Proof.Spec.lean ====
/-
  The mathematics both programs compute, stated once over the extended reals: the activation (leaky slope 0.2,
  clamp to [-2, 2], exponential) as one scalar function; a row's score as the activation of its dot product with a
  projection row plus a bias; a column of quotients; and the law that joins the two programs — a double sum over
  finite reals may be taken in either order of association:
  Σ_j (Σ_k x_k W_kj) a_j = Σ_k x_k (Σ_j W_kj a_j).
-/
import Idealize.ShloMosaic.PureOps.Ideal
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.AttnSpec

/-- leaky slope 0.2, clamp to [-2, 2], exponential: one scalar function of the pre-activation. -/
def act (z : Ideal .f32) : Ideal .f32 :=
  FloatOps.exp (FloatOps.minimumf (FloatOps.ofBits .f32 0x40000000#32)
    (FloatOps.maximumf (FloatOps.ofBits .f32 0xC0000000#32)
      (Scalar.select (FloatOps.cmpf .oge z (FloatOps.ofBits .f32 0x00000000#32)) z
        (FloatOps.mulf (FloatOps.ofBits .f32 0x3E4CCCCD#32) z))))

def Fin' (x : EReal) : Prop := x ≠ ⊤ ∧ x ≠ ⊥

/-- one row's score: the activation of the row's dot product with a projection row, plus a bias. -/
def rowScore {K : Nat} (X : (⟨2, ![1000000, K]⟩ : Shape).Idx → EReal) (nv : (⟨2, ![1, K]⟩ : Shape).Idx → EReal)
    (bias : (⟨2, ![1, 2]⟩ : Shape).Idx → EReal) (q : Fin 2) : (⟨2, ![1000000, 1]⟩ : Shape).Idx → EReal :=
  fun j => act ((∑ k : Fin K, X (ix2 (j 0) k) * nv (ix2 0 k)) + bias (ix2 0 q))

/-- a column of quotients -/
def quot (s d : (⟨2, ![1000000, 1]⟩ : Shape).Idx → EReal) : (⟨2, ![1000000, 1]⟩ : Shape).Idx → EReal :=
  fun j => Ideal.div (s j) (d j)

/-- the inclusion of the reals in the extended reals carries a finite sum to the sum of the images -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_reassoc {K J : Nat} (x : Fin K → EReal) (W : Fin K → Fin J → EReal) (a : Fin J → EReal)
    (hx : ∀ k, Fin' (x k)) (hW : ∀ k j, Fin' (W k j)) (ha : ∀ j, Fin' (a j)) :
    ∑ j, (∑ k, x k * W k j) * a j = ∑ k, x k * (∑ j, W k j * a j) := by
  -- every entry is the image of a real number
  have ex : ∀ k, ∃ r : ℝ, x k = (r : EReal) := fun k =>
    ⟨(x k).toReal, (EReal.coe_toReal (hx k).1 (hx k).2).symm⟩
  have eW : ∀ k j, ∃ r : ℝ, W k j = (r : EReal) := fun k j =>
    ⟨(W k j).toReal, (EReal.coe_toReal (hW k j).1 (hW k j).2).symm⟩
  have ea : ∀ j, ∃ r : ℝ, a j = (r : EReal) := fun j =>
    ⟨(a j).toReal, (EReal.coe_toReal (ha j).1 (ha j).2).symm⟩
  choose xr hxr using ex
  choose Wr hWr using eW
  choose ar har using ea
  simp only [hxr, hWr, har]
  -- both sides are images of real double sums
  simp only [← EReal.coe_mul, ← coe_sum]
  congr 1
  -- in the reals: distribute, exchange the two sums, reassociate the products
  simp only [Finset.sum_mul, Finset.mul_sum]
  rw [Finset.sum_comm]
  simp only [mul_assoc]

end Cert.AttnSpec

end
-- ==== Proof.Finite.lean ====
/-
  What the precondition says of the float inputs the two programs multiply: every entry of the node features, the edge
  matrix, the two weight matrices and the two attention vectors is a real number (neither infinity).
-/
import proofs.«406015_j68745246540453_1_alg».proof.Pre_finite_inputs
import proofs.«406015_j68745246540453_1_alg».proof.Proof.Gen.Pre_finite_inputs
import proofs.«406015_j68745246540453_1_alg».proof.Proof.Spec
import Idealize.ShloMosaic.Lib.ReduceAll

set_option maxRecDepth 16384

noncomputable section

open Idealize.ShloMosaic Idealize.ShloMosaic.TcCoe Idealize.SL.Sem Idealize.ShloMosaic.ValueIdx
open scoped BigOperators

namespace Cert.Proof.Finite
open Cert.Pre_finite_inputs Cert.AttnSpec

/-- The pattern 0x7F800000 denotes +∞. -/
private theorem inf_bits : Ideal.ofBits .f32 0x7F800000#32 = (⊤ : EReal) := by
  simp [Ideal.ofBits, Ideal.ieee]

/-- One entry: |x| < +∞, where |x| = max x (-x), says x is neither infinity. -/
private theorem fin_of_abs_lt_inf (x : Ideal .f32)
    (h : FloatOps.cmpf .olt (FloatOps.hostAbsf x) (FloatOps.ofBits (F := Ideal) .f32 0x7F800000#32) = 1#1) : Fin' x := by
  change Ideal.cmp .olt (max (x : EReal) (-(x : EReal))) (Ideal.ofBits .f32 0x7F800000#32) = 1#1 at h
  rw [inf_bits] at h
  unfold Ideal.cmp at h
  have hlt : max (x : EReal) (-(x : EReal)) < ⊤ := by
    by_contra hn
    simp [hn] at h
  rw [max_lt_iff] at hlt
  refine ⟨ne_of_lt hlt.1, ?_⟩
  intro hb
  rw [hb] at hlt
  simp at hlt

/-- The rank-0 shape has one index. -/
private instance : Subsingleton S_.Idx := ⟨fun a b => funext fun d => d.elim0⟩

/-- One array: if the conjunction over all entries of |x| < +∞ is true, every entry is finite. -/
private theorem all_fin {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant S_ .f32 0x7F800000#32)))
          (constantI S_ 1 1#1) hr h0 ix0 = 1#1) :
    ∀ i, Fin' (x i) := fun i =>
  fin_of_abs_lt_inf (x i) (Host.reduce_andi_all _ _ hr h0 ix0 h i)

/-- A conjunction of two one-bit scalars that is true has both true. -/
private theorem both (x y : IVec S_ 1) (h : andi x y ix0 = 1#1) : x ix0 = 1#1 ∧ y ix0 = 1#1 :=
  IntOp.andi_eq_one.1 h

theorem finite_of_pre (a0 : FVec Ideal S1000000x64 .f32) (a1 : FVec Ideal S1000000x16 .f32) (a2 : FVec Ideal S1x32 .f32)
    (a3 : FVec Ideal S1000000x16 .f32) (a4 : IVec S1000000 32) (a5 : FVec Ideal S64x64 .f32) (a6 : FVec Ideal S16x64 .f32)
    (a7 : FVec Ideal S32x64 .f32) (a8 : FVec Ideal S128x1 .f32) (a9 : FVec Ideal S128x1 .f32)
    (h : Cert.Pre_finite_inputs.fn (F := Ideal) a0 a1 a2 a3 a4 a5 a6 a7 a8 a9 = fun _ => 1#1) :
    (∀ i, Fin' (a0 i)) ∧ (∀ i, Fin' (a3 i)) ∧ (∀ i, Fin' (a5 i)) ∧ (∀ i, Fin' (a6 i)) ∧ (∀ i, Fin' (a8 i)) ∧ (∀ i, Fin' (a9 i)) := by
  have h := congrFun h ix0
  dsimp only [fn, fn_part1, fn_part2] at h
  -- the nine conjuncts, peeled from the outside in
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h3⟩ := both _ _ h
  obtain ⟨h, h2⟩ := both _ _ h
  obtain ⟨h0, h1⟩ := both _ _ h
  exact ⟨all_fin a0 _ _ _ h0, all_fin a3 _ _ _ h3, all_fin a5 _ _ _ h5, all_fin a6 _ _ _ h6,
    all_fin a8 _ _ _ h8, all_fin a9 _ _ _ h9⟩

end Cert.Proof.Finite

end
-- ==== Proof.KReg0.lean ====
/-
  Region 0 (the score kernel) as whole arrays: its grid of 20 points tiles the 1,000,000 rows in blocks of 50,000, each
  point writing its block of row scores, so each output array ends at the row score of the region-entry arrays, row by row.
-/
import proofs.«406015_j68745246540453_1_alg».proof.Proof.Gen.KernelIdeal.Frame
import proofs.«406015_j68745246540453_1_alg».proof.Proof.Spec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.KernelIdeal.Hand
open Cert.KernelIdeal Cert.KernelIdeal.Gen Cert.AttnSpec

/-! ## One row of a block: the body's arithmetic read at a row index -/

/-- The index over row `r` of a 50000-row block with coordinate `k` inserted on the reduced axis is `(r, k)`. -/
private theorem lift_ix {K : Nat} (h : (⟨2, ![50000, K]⟩ : Shape).Reduces [1] S50000) (r : Fin 50000) (k : Fin K) :
    h.lift (ix1 r) k = ix2 r k := by
  funext c; apply Fin.ext
  match c with
  | ⟨0, _⟩ => rfl
  | ⟨1, _⟩ => rfl

/-- The sum along the lanes of a 50000 × K block, at row `r`, is the sum over `k` of its entries `(r, k)`. -/
private theorem rowsum_apply {K : Nat} (h : (⟨2, ![50000, K]⟩ : Shape).Reduces [1] S50000) (src : FVec Ideal ⟨2, ![50000, K]⟩ .f32)
    (hφ : FKind.Formats .f32) (hacc : (0x00000000#32 : BitVec 32) = FKind.add.neutral .f32 hφ) (r : Fin 50000) :
    multiReduction .add [1] S50000 src 0x00000000#32 h hφ hacc (ix1 r) = ∑ k : Fin K, src (ix2 r k) := by
  refine (Ideal.multiReduction_add_single src _ h hφ hacc (ix1 r)).trans ?_
  exact Finset.sum_congr rfl fun k _ => congrArg src (lift_ix h r k)

/-- The first output's payload at row `r`: the activation of the row's dot product with the 1 × 64 projection row plus
    the bias in column 0. -/
private theorem pay4_apply (v0 : Vec Ideal S50000x64 .f32) (v2 : Vec Ideal S1x64 .f32) (v6 : Vec Ideal S1x2 .f32) (r : Fin 50000) :
    k0_pay4 v0 v2 v6 (ix2 r 0) = act ((∑ k : Fin 64, v0 (ix2 r k) * v2 (ix2 0 k)) + v6 (ix2 0 0)) := by
  unfold k0_pay4 k0_pay2
  refine congrArg act ?_
  refine (addf_apply _ _ _).trans ?_
  refine congrArg₂ (· + ·) ?_ ?_
  · refine (shapeCast_apply _ _ (ix2 r 0) (ix1 r) ?_).trans ?_
    · rw [Shape.rowMajor_val_one, Shape.rowMajor_val_two]
      show r.val = r.val * 1 + 0
      omega
    refine (rowsum_apply _ _ _ _ r).trans ?_
    refine Finset.sum_congr rfl fun k _ => ?_
    refine (mulf_apply _ _ _).trans ?_
    refine congrArg (v0 (ix2 r k) * ·) ?_
    refine (broadcastTo_1b_ab_apply _ _ r k).trans ?_
    rw [shapeCast_self]
  · refine (broadcast_apply _ _).trans ?_
    unfold extractAt
    refine (extractStridedSlice_apply _ _ _ _ (ix2 0 0) ?_).trans ?_
    · intro a
      match a with
      | ⟨0, _⟩ => rfl
      | ⟨1, _⟩ => rfl
    rw [shapeCast_self]

/-- The second output's payload at row `r`: the activation of the row's dot product with the 1 × 16 projection row plus
    the bias in column 1. -/
private theorem pay13_apply (v1 : Vec Ideal S50000x16 .f32) (v4 : Vec Ideal S1x16 .f32) (v6 : Vec Ideal S1x2 .f32) (r : Fin 50000) :
    k0_pay1 (k0_pay3 v1 v4 v6) (ix2 r 0) = act ((∑ k : Fin 16, v1 (ix2 r k) * v4 (ix2 0 k)) + v6 (ix2 0 1)) := by
  unfold k0_pay1 k0_pay3 k0_pay2
  refine congrArg act ?_
  refine (addf_apply _ _ _).trans ?_
  refine congrArg₂ (· + ·) ?_ ?_
  · refine (shapeCast_apply _ _ (ix2 r 0) (ix1 r) ?_).trans ?_
    · rw [Shape.rowMajor_val_one, Shape.rowMajor_val_two]
      show r.val = r.val * 1 + 0
      omega
    refine (rowsum_apply _ _ _ _ r).trans ?_
    refine Finset.sum_congr rfl fun k _ => ?_
    refine (mulf_apply _ _ _).trans ?_
    refine congrArg (v1 (ix2 r k) * ·) ?_
    refine (broadcastTo_1b_ab_apply _ _ r k).trans ?_
    rw [shapeCast_self]
  · refine (broadcast_apply _ _).trans ?_
    unfold extractAt
    refine (extractStridedSlice_apply _ _ _ _ (ix2 0 1) ?_).trans ?_
    · intro a
      match a with
      | ⟨0, _⟩ => rfl
      | ⟨1, _⟩ => rfl
    rw [shapeCast_self]

/-! ## The grid's blocks: where each window sits at a point, what a point writes back, and the cover -/

section Regions
variable (V : (c : Dev nD) → (b : Ref sig .tc) → Buf (Elt Ideal) ((c : Thread nD τ).loc b))

private theorem zero_off : (![0, 0] : Fin 2 → Nat) = fun _ => 0 := funext fun a => by
  match a with
  | ⟨0, _⟩ => rfl
  | ⟨1, _⟩ => rfl

/-- The index maps over the 20 points: the row windows (inputs 0, 1 and outputs 5, 6) sit at block row `t`, column
    block 0; the projection rows and the bias (windows 2, 3, 4) sit at block (0, 0) throughout. -/
private theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ### The first output (window 5): 64 lanes, bias column 0 -/

/-- What point `t` writes back to the first output is block `t` of the row score of the region-entry arrays. -/
private theorem flushed5_eq (c : Dev nD) (t : Fin cfg0.N) :
    (dat0 (F := Ideal) V c).flushed 5 t = ((cfg0.win 5).blk t).view.read (Elt Ideal)
      (rowScore (K := 64) (V c main_arg0) (V c main_v9) (V c main_v7) 0) := by
  show (cfg0.win 5).cut (grid0.coords t) ((dat0 V c).after 5 t) = _
  rw [after0_5]
  unfold out0_5
  rw [View.canon_unit_zero zero_off]
  simp only [View.ld_unit_zero (S := S50000x64) zero_off, View.ld_unit_zero (S := S1x64) zero_off,
    View.ld_unit_zero (S := S1x2) zero_off]
  obtain ⟨e00, e01, -, -, e20, e21, -, -, e40, e41, e50, e51, -, -⟩ := idx_facts t
  funext j
  have hr : (j 0).val < 50000 := (j 0).isLt
  have hj1 : (j 1).val < 1 := (j 1).isLt
  have hx : (win0 5).xinj (grid0.coords t) j = ix2 (⟨(j 0).val, hr⟩ : Fin 50000) (0 : Fin 1) :=
    funext fun a => Fin.ext (by
      match a with
      | ⟨0, _⟩ => rfl
      | ⟨1, _⟩ => show (j 1).val = 0; omega)
  show k0_pay4 (iblk0 V c 0 t) (iblk0 V c 2 t) (iblk0 V c 4 t) ((win0 5).xinj (grid0.coords t) j) = _
  rw [hx, pay4_apply]
  show _ = rowScore (K := 64) (V c main_arg0) (V c main_v9) (V c main_v7) 0 (((cfg0.win 5).blk t).view.emb j)
  unfold rowScore
  refine congrArg act ?_
  refine congrArg₂ (· + ·) (Finset.sum_congr rfl fun k _ => congrArg₂ (· * ·) ?_ ?_) ?_
  · -- row `j` of block `t` of the 1,000,000 × 64 array is row `t · 50000 + j`, as in the output
    show V c main_arg0 (((cfg0.win 0).blk t).view.emb (ix2 (⟨(j 0).val, hr⟩ : Fin 50000) k)) = _
    refine congrArg (V c main_arg0) (funext fun a => Fin.ext ?_)
    match a with
    | ⟨0, _⟩ =>
      show win0_0.index t (0 : Fin 2) * 50000 + 1 * (j 0).val = win0_5.index t (0 : Fin 2) * 50000 + 1 * (j 0).val
      omega
    | ⟨1, _⟩ =>
      show win0_0.index t (1 : Fin 2) * 64 + 1 * k.val = k.val
      omega
  · -- the projection row is the whole 1 × 64 array at every point
    show V c main_v9 (((cfg0.win 2).blk t).view.emb (ix2 (0 : Fin 1) k)) = _
    refine congrArg (V c main_v9) (funext fun a => Fin.ext ?_)
    match a with
    | ⟨0, _⟩ =>
      show win0_2.index t (0 : Fin 2) * 1 + 1 * 0 = 0
      omega
    | ⟨1, _⟩ =>
      show win0_2.index t (1 : Fin 2) * 64 + 1 * k.val = k.val
      omega
  · -- the bias is the whole 1 × 2 array at every point
    show V c main_v7 (((cfg0.win 4).blk t).view.emb (ix2 (0 : Fin 1) (0 : Fin 2))) = _
    refine congrArg (V c main_v7) (funext fun a => Fin.ext ?_)
    match a with
    | ⟨0, _⟩ =>
      show win0_4.index t (0 : Fin 2) * 1 + 1 * 0 = 0
      omega
    | ⟨1, _⟩ =>
      show win0_4.index t (1 : Fin 2) * 2 + 1 * 0 = 0
      omega

/-- An index of the first output is in point `t`'s block iff each coordinate is in the block's range on its axis. -/
private theorem mem_blk5 (t : Fin cfg0.N) (i : S1000000x1.Idx) :
    i ∈ ((cfg0.win 5).blk t).view.set ↔ ∀ a : Fin 2, win0_5.index t a * S50000x1.size a ≤ (i a).val
      ∧ (i a).val < win0_5.index t a * S50000x1.size a + S50000x1.size a := by
  show i ∈ ((View.whole main_v12_0).slice (win0_5.rect t)).set ↔ _
  rw [View.set_slice_whole, Rect.mem_set_unit]
  exact Iff.rfl

/-- Row `r` of the first output is in the block of point `r / 50000`. -/
private theorem cover5 (i : S1000000x1.Idx) :
    ∃ t : Fin cfg0.N, (cfg0.win 5).flush t = true ∧ i ∈ ((cfg0.win 5).blk t).view.set := by
  have hi0 : (i 0).val < 1000000 := (i 0).isLt
  have hi1 : (i 1).val < 1 := (i 1).isLt
  have hN : (i 0).val / 50000 < cfg0.N := by show _ < 20; omega
  obtain ⟨-, -, -, -, -, -, -, -, -, -, e50, e51, -, -⟩ := idx_facts ⟨(i 0).val / 50000, hN⟩
  refine ⟨⟨(i 0).val / 50000, hN⟩, flush0_5 _, ?_⟩
  rw [mem_blk5]
  intro a
  match a with
  | ⟨0, _⟩ =>
    show win0_5.index ⟨(i 0).val / 50000, hN⟩ (0 : Fin 2) * 50000 ≤ (i 0).val
      ∧ (i 0).val < win0_5.index ⟨(i 0).val / 50000, hN⟩ (0 : Fin 2) * 50000 + 50000
    rw [e50]
    show (i 0).val / 50000 * 50000 ≤ (i 0).val ∧ (i 0).val < (i 0).val / 50000 * 50000 + 50000
    omega
  | ⟨1, _⟩ =>
    show win0_5.index ⟨(i 0).val / 50000, hN⟩ (1 : Fin 2) * 1 ≤ (i 1).val
      ∧ (i 1).val < win0_5.index ⟨(i 0).val / 50000, hN⟩ (1 : Fin 2) * 1 + 1
    rw [e51]
    omega

theorem reg0_5 (c : Dev nD) : (dat0 (F := Ideal) V c).arrAt 5 cfg0.N
    = rowScore (K := 64) (V c main_arg0) (V c main_v9) (V c main_v7) 0 :=
  (dat0 V c).arrAt_eq_of_cover 5 _ (fun t _ => flushed5_eq V c t) cover5

/-! ### The second output (window 6): 16 lanes, bias column 1 -/

/-- What point `t` writes back to the second output is block `t` of the row score of the region-entry arrays. -/
private theorem flushed6_eq (c : Dev nD) (t : Fin cfg0.N) :
    (dat0 (F := Ideal) V c).flushed 6 t = ((cfg0.win 6).blk t).view.read (Elt Ideal)
      (rowScore (K := 16) (V c main_arg3) (V c main_v11) (V c main_v7) 1) := by
  show (cfg0.win 6).cut (grid0.coords t) ((dat0 V c).after 6 t) = _
  rw [after0_6]
  unfold out0_6
  rw [View.canon_unit_zero zero_off]
  simp only [View.ld_unit_zero (S := S50000x16) zero_off, View.ld_unit_zero (S := S1x16) zero_off,
    View.ld_unit_zero (S := S1x2) zero_off]
  obtain ⟨-, -, e10, e11, -, -, e30, e31, e40, e41, -, -, e60, e61⟩ := idx_facts t
  funext j
  have hr : (j 0).val < 50000 := (j 0).isLt
  have hj1 : (j 1).val < 1 := (j 1).isLt
  have hx : (win0 6).xinj (grid0.coords t) j = ix2 (⟨(j 0).val, hr⟩ : Fin 50000) (0 : Fin 1) :=
    funext fun a => Fin.ext (by
      match a with
      | ⟨0, _⟩ => rfl
      | ⟨1, _⟩ => show (j 1).val = 0; omega)
  show k0_pay1 (k0_pay3 (iblk0 V c 1 t) (iblk0 V c 3 t) (iblk0 V c 4 t)) ((win0 6).xinj (grid0.coords t) j) = _
  rw [hx, pay13_apply]
  show _ = rowScore (K := 16) (V c main_arg3) (V c main_v11) (V c main_v7) 1 (((cfg0.win 6).blk t).view.emb j)
  unfold rowScore
  refine congrArg act ?_
  refine congrArg₂ (· + ·) (Finset.sum_congr rfl fun k _ => congrArg₂ (· * ·) ?_ ?_) ?_
  · -- row `j` of block `t` of the 1,000,000 × 16 array is row `t · 50000 + j`, as in the output
    show V c main_arg3 (((cfg0.win 1).blk t).view.emb (ix2 (⟨(j 0).val, hr⟩ : Fin 50000) k)) = _
    refine congrArg (V c main_arg3) (funext fun a => Fin.ext ?_)
    match a with
    | ⟨0, _⟩ =>
      show win0_1.index t (0 : Fin 2) * 50000 + 1 * (j 0).val = win0_6.index t (0 : Fin 2) * 50000 + 1 * (j 0).val
      omega
    | ⟨1, _⟩ =>
      show win0_1.index t (1 : Fin 2) * 16 + 1 * k.val = k.val
      omega
  · -- the projection row is the whole 1 × 16 array at every point
    show V c main_v11 (((cfg0.win 3).blk t).view.emb (ix2 (0 : Fin 1) k)) = _
    refine congrArg (V c main_v11) (funext fun a => Fin.ext ?_)
    match a with
    | ⟨0, _⟩ =>
      show win0_3.index t (0 : Fin 2) * 1 + 1 * 0 = 0
      omega
    | ⟨1, _⟩ =>
      show win0_3.index t (1 : Fin 2) * 16 + 1 * k.val = k.val
      omega
  · -- the bias is the whole 1 × 2 array at every point
    show V c main_v7 (((cfg0.win 4).blk t).view.emb (ix2 (0 : Fin 1) (1 : Fin 2))) = _
    refine congrArg (V c main_v7) (funext fun a => Fin.ext ?_)
    match a with
    | ⟨0, _⟩ =>
      show win0_4.index t (0 : Fin 2) * 1 + 1 * 0 = 0
      omega
    | ⟨1, _⟩ =>
      show win0_4.index t (1 : Fin 2) * 2 + 1 * 1 = 1
      omega

/-- An index of the second output is in point `t`'s block iff each coordinate is in the block's range on its axis. -/
private theorem mem_blk6 (t : Fin cfg0.N) (i : S1000000x1.Idx) :
    i ∈ ((cfg0.win 6).blk t).view.set ↔ ∀ a : Fin 2, win0_6.index t a * S50000x1.size a ≤ (i a).val
      ∧ (i a).val < win0_6.index t a * S50000x1.size a + S50000x1.size a := by
  show i ∈ ((View.whole main_v12_1).slice (win0_6.rect t)).set ↔ _
  rw [View.set_slice_whole, Rect.mem_set_unit]
  exact Iff.rfl

/-- Row `r` of the second output is in the block of point `r / 50000`. -/
private theorem cover6 (i : S1000000x1.Idx) :
    ∃ t : Fin cfg0.N, (cfg0.win 6).flush t = true ∧ i ∈ ((cfg0.win 6).blk t).view.set := by
  have hi0 : (i 0).val < 1000000 := (i 0).isLt
  have hi1 : (i 1).val < 1 := (i 1).isLt
  have hN : (i 0).val / 50000 < cfg0.N := by show _ < 20; omega
  obtain ⟨-, -, -, -, -, -, -, -, -, -, -, -, e60, e61⟩ := idx_facts ⟨(i 0).val / 50000, hN⟩
  refine ⟨⟨(i 0).val / 50000, hN⟩, flush0_6 _, ?_⟩
  rw [mem_blk6]
  intro a
  match a with
  | ⟨0, _⟩ =>
    show win0_6.index ⟨(i 0).val / 50000, hN⟩ (0 : Fin 2) * 50000 ≤ (i 0).val
      ∧ (i 0).val < win0_6.index ⟨(i 0).val / 50000, hN⟩ (0 : Fin 2) * 50000 + 50000
    rw [e60]
    show (i 0).val / 50000 * 50000 ≤ (i 0).val ∧ (i 0).val < (i 0).val / 50000 * 50000 + 50000
    omega
  | ⟨1, _⟩ =>
    show win0_6.index ⟨(i 0).val / 50000, hN⟩ (1 : Fin 2) * 1 ≤ (i 1).val
      ∧ (i 1).val < win0_6.index ⟨(i 0).val / 50000, hN⟩ (1 : Fin 2) * 1 + 1
    rw [e61]
    omega

theorem reg0_6 (c : Dev nD) : (dat0 (F := Ideal) V c).arrAt 6 cfg0.N
    = rowScore (K := 16) (V c main_arg3) (V c main_v11) (V c main_v7) 1 :=
  (dat0 V c).arrAt_eq_of_cover 6 _ (fun t _ => flushed6_eq V c t) cover6
end Regions

end Cert.KernelIdeal.Hand

end
-- ==== Proof.KReg1.lean ====
/-
  Region 1 (the normalizing kernel) as whole arrays: its 20 points tile the rows in blocks of 50,000, each point writing
  the quotient of its two input blocks, so each output array ends at the quotient of the region-entry arrays, row by row.
-/
import proofs.«406015_j68745246540453_1_alg».proof.Proof.Gen.KernelIdeal.Frame
import proofs.«406015_j68745246540453_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open scoped BigOperators

namespace Cert.KernelIdeal.Hand
open Cert.KernelIdeal Cert.KernelIdeal.Gen Cert.AttnSpec

/-! ## The body's payloads and the index maps -/

/-- The zero offset of a store that fills its buffer. -/
theorem hz1 : (![0, 0] : Fin 2 → Nat) = fun _ => 0 := funext fun a => by fin_cases a <;> rfl

/-- The first payload is the pointwise quotient of its two loaded blocks: a cast to the same shape changes nothing. -/
theorem pay1_eq (x0 x1 : Vec Ideal S50000x1 .f32) : k1_pay1 x0 x1 = divf x0 x1 := by
  unfold k1_pay1
  rw [shapeCast_self, shapeCast_self]

/-- The second payload likewise. -/
theorem pay2_eq (x0 x1 : Vec Ideal S50000x1 .f32) : k1_pay2 x0 x1 = divf x0 x1 := by
  unfold k1_pay2
  rw [shapeCast_self, shapeCast_self]

/-- Every window of the region takes block `t` of its array at point `t`: the index maps, decided over the 20 points. -/
theorem idx_facts1 : ∀ t : Fin cfg1.N,
    win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_5.index t (0 : Fin 2)
    ∧ win1_2.index t (1 : Fin 2) = win1_5.index t (1 : Fin 2)
    ∧ win1_3.index t (0 : Fin 2) = win1_5.index t (0 : Fin 2)
    ∧ win1_3.index t (1 : Fin 2) = win1_5.index t (1 : Fin 2) :=
  (by decide +kernel : ∀ t : Fin grid1.N, _)

/-- Every block of rows is some point's, for either output window. -/
theorem idx_onto4 : ∀ q0 : Fin 20, ∃ t : Fin cfg1.N, win1_4.index t = ![q0.val, 0] :=
  (by decide +kernel : ∀ q0 : Fin 20, ∃ t : Fin grid1.N, win1_4.index t = ![q0.val, 0])

theorem idx_onto5 : ∀ q0 : Fin 20, ∃ t : Fin cfg1.N, win1_5.index t = ![q0.val, 0] :=
  (by decide +kernel : ∀ q0 : Fin 20, ∃ t : Fin grid1.N, win1_5.index t = ![q0.val, 0])

/-- An index of the array is in point `t`'s block iff each coordinate is in the block's range on its axis. -/
theorem mem_blk4 (t : Fin cfg1.N) (i : S1000000x1.Idx) :
    i ∈ ((cfg1.win 4).blk t).view.set ↔ ∀ a : Fin 2, win1_4.index t a * S50000x1.size a ≤ (i a).val ∧ (i a).val < win1_4.index t a * S50000x1.size a + S50000x1.size a := by
  show i ∈ ((View.whole main_v37_0).slice (win1_4.rect t)).set ↔ _
  rw [View.set_slice_whole, Rect.mem_set_unit]
  exact Iff.rfl

/-- The 20 blocks of 50,000 rows cover the million rows: row `r` lies in block `r / 50000`. -/
theorem cover4 (i : S1000000x1.Idx) : ∃ t : Fin cfg1.N, (cfg1.win 4).flush t = true ∧ i ∈ ((cfg1.win 4).blk t).view.set := by
  have hi0 : (i 0).val < 1000000 := (i 0).isLt
  have hi1 : (i 1).val < 1 := (i 1).isLt
  obtain ⟨t, ht⟩ := idx_onto4 ⟨(i 0).val / 50000, by omega⟩
  have q0 : win1_4.index t (0 : Fin 2) = (i 0).val / 50000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 50000 ≤ (i 0).val ∧ (i 0).val < win1_4.index t (0 : Fin 2) * 50000 + 50000; omega
  | ⟨1, _⟩ => show win1_4.index t (1 : Fin 2) * 1 ≤ (i 1).val ∧ (i 1).val < win1_4.index t (1 : Fin 2) * 1 + 1; omega

/-- An index of the array is in point `t`'s block iff each coordinate is in the block's range on its axis. -/
theorem mem_blk5 (t : Fin cfg1.N) (i : S1000000x1.Idx) :
    i ∈ ((cfg1.win 5).blk t).view.set ↔ ∀ a : Fin 2, win1_5.index t a * S50000x1.size a ≤ (i a).val ∧ (i a).val < win1_5.index t a * S50000x1.size a + S50000x1.size a := by
  show i ∈ ((View.whole main_v37_1).slice (win1_5.rect t)).set ↔ _
  rw [View.set_slice_whole, Rect.mem_set_unit]
  exact Iff.rfl

/-- The 20 blocks of 50,000 rows cover the million rows: row `r` lies in block `r / 50000`. -/
theorem cover5 (i : S1000000x1.Idx) : ∃ t : Fin cfg1.N, (cfg1.win 5).flush t = true ∧ i ∈ ((cfg1.win 5).blk t).view.set := by
  have hi0 : (i 0).val < 1000000 := (i 0).isLt
  have hi1 : (i 1).val < 1 := (i 1).isLt
  obtain ⟨t, ht⟩ := idx_onto5 ⟨(i 0).val / 50000, by omega⟩
  have q0 : win1_5.index t (0 : Fin 2) = (i 0).val / 50000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 50000 ≤ (i 0).val ∧ (i 0).val < win1_5.index t (0 : Fin 2) * 50000 + 50000; omega
  | ⟨1, _⟩ => show win1_5.index t (1 : Fin 2) * 1 ≤ (i 1).val ∧ (i 1).val < win1_5.index t (1 : Fin 2) * 1 + 1; omega

section Regions
variable (V : (c : Dev nD) → (b : Ref sig .tc) → Buf (Elt Ideal) ((c : Thread nD τ).loc b))

/-- What point `t` writes back to the first output is block `t` of the quotient of the two arrays it reads: the
    store fills the buffer with the quotient of the two loaded blocks, and all three windows sit on block `t`. -/
theorem flushed4_eq (c : Dev nD) (t : Fin cfg1.N) :
    (dat1 (F := Ideal) V c).flushed 4 t = ((cfg1.win 4).blk t).view.read (Elt Ideal) (quot (V c main_v12_0) (V c main_v28)) := by
  show (cfg1.win 4).cut (grid1.coords t) ((dat1 V c).after 4 t) = _
  rw [after1_4]
  unfold out1_4
  rw [View.canon_unit_zero hz1]
  simp only [View.ld_unit_zero (S := S50000x1) hz1]
  rw [pay1_eq]
  obtain ⟨e0, e1, e2, e3, -, -, -, -⟩ := idx_facts1 t
  funext j
  show Ideal.div (V c main_v12_0 (((cfg1.win 0).blk t).view.emb j)) (V c main_v28 (((cfg1.win 1).blk t).view.emb j))
    = Ideal.div (V c main_v12_0 (((cfg1.win 4).blk t).view.emb j)) (V c main_v28 (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 50000 + 1 * (j 0).val = win1_4.index t (0 : Fin 2) * 50000 + 1 * (j 0).val; omega
    | ⟨1, _⟩ => show win1_0.index t (1 : Fin 2) * 1 + 1 * (j 1).val = win1_4.index t (1 : Fin 2) * 1 + 1 * (j 1).val; omega
  have h1 : ((cfg1.win 1).blk t).view.emb j = ((cfg1.win 4).blk t).view.emb j := by
    funext a; apply Fin.ext
    match a with
    | ⟨0, _⟩ => show win1_1.index t (0 : Fin 2) * 50000 + 1 * (j 0).val = win1_4.index t (0 : Fin 2) * 50000 + 1 * (j 0).val; omega
    | ⟨1, _⟩ => show win1_1.index t (1 : Fin 2) * 1 + 1 * (j 1).val = win1_4.index t (1 : Fin 2) * 1 + 1 * (j 1).val; omega
  rw [h0, h1]

/-- The second output likewise, from the other pair of arrays. -/
theorem flushed5_eq (c : Dev nD) (t : Fin cfg1.N) :
    (dat1 (F := Ideal) V c).flushed 5 t = ((cfg1.win 5).blk t).view.read (Elt Ideal) (quot (V c main_v12_1) (V c main_v36)) := by
  show (cfg1.win 5).cut (grid1.coords t) ((dat1 V c).after 5 t) = _
  rw [after1_5]
  unfold out1_5
  rw [View.canon_unit_zero hz1]
  simp only [View.ld_unit_zero (S := S50000x1) hz1]
  rw [pay2_eq]
  obtain ⟨-, -, -, -, e0, e1, e2, e3⟩ := idx_facts1 t
  funext j
  show Ideal.div (V c main_v12_1 (((cfg1.win 2).blk t).view.emb j)) (V c main_v36 (((cfg1.win 3).blk t).view.emb j))
    = Ideal.div (V c main_v12_1 (((cfg1.win 5).blk t).view.emb j)) (V c main_v36 (((cfg1.win 5).blk t).view.emb j))
  have h0 : ((cfg1.win 2).blk t).view.emb j = ((cfg1.win 5).blk t).view.emb j := by
    funext a; apply Fin.ext
    match a with
    | ⟨0, _⟩ => show win1_2.index t (0 : Fin 2) * 50000 + 1 * (j 0).val = win1_5.index t (0 : Fin 2) * 50000 + 1 * (j 0).val; omega
    | ⟨1, _⟩ => show win1_2.index t (1 : Fin 2) * 1 + 1 * (j 1).val = win1_5.index t (1 : Fin 2) * 1 + 1 * (j 1).val; omega
  have h1 : ((cfg1.win 3).blk t).view.emb j = ((cfg1.win 5).blk t).view.emb j := by
    funext a; apply Fin.ext
    match a with
    | ⟨0, _⟩ => show win1_3.index t (0 : Fin 2) * 50000 + 1 * (j 0).val = win1_5.index t (0 : Fin 2) * 50000 + 1 * (j 0).val; omega
    | ⟨1, _⟩ => show win1_3.index t (1 : Fin 2) * 1 + 1 * (j 1).val = win1_5.index t (1 : Fin 2) * 1 + 1 * (j 1).val; omega
  rw [h0, h1]

/-- The blocks cover the array, so it ends at the quotient everywhere. -/
theorem reg1_4 (c : Dev nD) : (dat1 (F := Ideal) V c).arrAt 4 cfg1.N = quot (V c main_v12_0) (V c main_v28) :=
  (dat1 (F := Ideal) V c).arrAt_eq_of_cover 4 (quot (V c main_v12_0) (V c main_v28)) (fun t _ => flushed4_eq V c t) cover4

theorem reg1_5 (c : Dev nD) : (dat1 (F := Ideal) V c).arrAt 5 cfg1.N = quot (V c main_v12_1) (V c main_v36) :=
  (dat1 (F := Ideal) V c).arrAt_eq_of_cover 5 (quot (V c main_v12_1) (V c main_v36)) (fun t _ => flushed5_eq V c t) cover5
end Regions

end Cert.KernelIdeal.Hand

end
-- ==== Proof.KDefs.lean ====
/-
  The host-side values the kernel's program computes before and between its two regions, each named as one function
  of the argument arrays: the two projection rows (a weight matrix times the feature half of an attention vector),
  the pair of graph biases, and the per-segment sums gathered back per row.
-/
import proofs.«406015_j68745246540453_1_alg».proof.Proof.Gen.KernelIdeal
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.KernelIdeal.Hand
open Cert.KernelIdeal

/-- per-segment sums gathered back per row: the host chain both programs share, as one function. -/
def den (s : FVec Ideal S1000000 .f32) (seg : IVec S1000000 32) : FVec Ideal S1000000 .f32 :=
  Host.gather gather_S1000000_S1000000x1_S1000000_n_0_n_n_0_1_1
    (Host.scatterAdd scatter_S1000000_S1000000x1_S1000000_n_0_0_1
      (broadcastInDim S1000000 ![] Facts₀.bcast_S_S1000000 (constant S_ .f32 0x00000000#32))
      (broadcastInDim S1000000x1 ![0] Facts₀.bcast_S1000000_S1000000x1_0 seg) s)
    (broadcastInDim S1000000x1 ![0] Facts₀.bcast_S1000000_S1000000x1_0
      (select (cmpi .slt seg (broadcastInDim S1000000 ![] Facts₀.bcast_S_S1000000 (constantI S_ 32 0#32)))
        (addi seg (broadcastInDim S1000000 ![] Facts₀.bcast_S_S1000000 (constantI S_ 32 1000000#32))) seg))

/-- the node projection row: W_node times the node half of a_node, laid out as a row -/
def nvec (W : FVec Ideal S64x64 .f32) (a : FVec Ideal S128x1 .f32) : FVec Ideal S1x64 .f32 :=
  shapeCast S1x64 (Host.dotGeneral (F := Ideal) dot_S64x64_S64x1_S64x1_1_0_0_1_n_n none W
    (extractStridedSlice S64x1 ![64, 0] a Facts₀.slices_S128x1_S64x1_64_0)) Facts₀.shapeCasts_S64x1_S1x64
/-- the edge projection row: W_edge times the edge half of a_edge, laid out as a row -/
def evec (W : FVec Ideal S16x64 .f32) (a : FVec Ideal S128x1 .f32) : FVec Ideal S1x16 .f32 :=
  shapeCast S1x16 (Host.dotGeneral (F := Ideal) dot_S16x64_S64x1_S16x1_1_0_0_1_n_n none W
    (extractStridedSlice S64x1 ![64, 0] a Facts₀.slices_S128x1_S64x1_64_0)) Facts₀.shapeCasts_S16x1_S1x16

/-- the two graph biases side by side -/
def gbias (g : FVec Ideal S1x32 .f32) (Wg : FVec Ideal S32x64 .f32) (a : FVec Ideal S128x1 .f32) : FVec Ideal S1x1 .f32 :=
  Host.dotGeneral (F := Ideal) dot_S1x64_S64x1_S1x1_1_0_0_1_n_n none (Host.dotGeneral (F := Ideal) dot_S1x32_S32x64_S1x64_1_0_0_1_n_n none g Wg)
    (extractStridedSlice S64x1 ![0, 0] a Facts₀.slices_S128x1_S64x1_0_0)

def bias2 (g : FVec Ideal S1x32 .f32) (Wg : FVec Ideal S32x64 .f32) (an ae : FVec Ideal S128x1 .f32) : FVec Ideal S1x2 .f32 :=
  concatenate S1x2 1 [⟨S1x1, gbias g Wg an⟩, ⟨S1x1, gbias g Wg ae⟩] Facts₀.concatenates_S1x1_S1x1_S1x2_d1

end Cert.KernelIdeal.Hand

end
-- ==== Proof.KHost.lean ====
/-
  The buffer contents at the boundaries of the kernel program's host stretches, read through the fold of host operations:
  what each window array of the two regions holds when its region is entered, and what the two result buffers hold after
  the last stretch, each as a named function of the argument arrays and of the regions' output arrays.
-/
import proofs.«406015_j68745246540453_1_alg».proof.Proof.Gen.KernelIdeal.Frame
import proofs.«406015_j68745246540453_1_alg».proof.Proof.KDefs
import Idealize.ShloMosaic.Lib.StableHlo.Run

set_option maxRecDepth 16384

noncomputable section

open Idealize.ShloMosaic Idealize.ShloMosaic.TcCoe Idealize.SL.Sem Idealize.ShloMosaic.ValueIdx
open scoped BigOperators

namespace Cert.KernelIdeal.Hand
open Cert.KernelIdeal Cert.KernelIdeal.Gen

variable (m : (ℓ : Loc nD τ sig) → Buf (Elt Ideal) ℓ) (ρ : Dev nD → PrngReg)

/-- No operation of a literal line writes the given reference: each operation's result reference differs from it. -/
local macro "unwritten" : tactic => `(tactic| (
  refine List.forall_iff_forall_mem.mp ?_
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem V1_arg0 (c : Dev nD) : V1 m ρ c main_arg0 = m ((c : Thread nD τ).loc main_arg0) :=
  calc V1 m ρ c main_arg0
    _ = W0 m ρ c (Proc.devRef .tc main_arg0) :=
          StableHlo.after_of_forall_not_mem (b := Proc.devRef .tc main_arg0) hostOps0 _ (by unwritten)
    _ = m ((c : Thread nD τ).loc main_arg0) := rfl
theorem V1_arg3 (c : Dev nD) : V1 m ρ c main_arg3 = m ((c : Thread nD τ).loc main_arg3) :=
  calc V1 m ρ c main_arg3
    _ = W0 m ρ c (Proc.devRef .tc main_arg3) :=
          StableHlo.after_of_forall_not_mem (b := Proc.devRef .tc main_arg3) hostOps0 _ (by unwritten)
    _ = m ((c : Thread nD τ).loc main_arg3) := rfl

theorem W5_v38 (c : Dev nD) : W5 m ρ c (Proc.devRef .tc main_v38)
    = shapeCast S1000000 ((dat1 (F := Ideal) (V3 m ρ) c).arrAt 4 cfg1.N) Facts₀.shapeCasts_S1000000x1_S1000000 := by
  have h4 : W4 m ρ c (Proc.devRef .tc main_v37_0) = (dat1 (F := Ideal) (V3 m ρ) c).arrAt 4 cfg1.N := W4_arr m ρ c 4
  show StableHlo.after hostOps2 (W4 m ρ c) (Proc.devRef .tc main_v38) = _
  after_results
  rw [h4]
  rfl
theorem W5_v39 (c : Dev nD) : W5 m ρ c (Proc.devRef .tc main_v39)
    = shapeCast S1000000 ((dat1 (F := Ideal) (V3 m ρ) c).arrAt 5 cfg1.N) Facts₀.shapeCasts_S1000000x1_S1000000 := by
  have h5 : W4 m ρ c (Proc.devRef .tc main_v37_1) = (dat1 (F := Ideal) (V3 m ρ) c).arrAt 5 cfg1.N := W4_arr m ρ c 5
  show StableHlo.after hostOps2 (W4 m ρ c) (Proc.devRef .tc main_v39) = _
  after_results
  rw [h5]
  rfl

theorem V3_v12_0 (c : Dev nD) : V3 m ρ c main_v12_0 = (dat0 (F := Ideal) (V1 m ρ) c).arrAt 5 cfg0.N :=
  calc V3 m ρ c main_v12_0
    _ = W2 m ρ c (Proc.devRef .tc main_v12_0) :=
          StableHlo.after_of_forall_not_mem (b := Proc.devRef .tc main_v12_0) hostOps1 _ (by unwritten)
    _ = (dat0 (F := Ideal) (V1 m ρ) c).arrAt 5 cfg0.N := W2_arr m ρ c 5
theorem V3_v12_1 (c : Dev nD) : V3 m ρ c main_v12_1 = (dat0 (F := Ideal) (V1 m ρ) c).arrAt 6 cfg0.N :=
  calc V3 m ρ c main_v12_1
    _ = W2 m ρ c (Proc.devRef .tc main_v12_1) :=
          StableHlo.after_of_forall_not_mem (b := Proc.devRef .tc main_v12_1) hostOps1 _ (by unwritten)
    _ = (dat0 (F := Ideal) (V1 m ρ) c).arrAt 6 cfg0.N := W2_arr m ρ c 6

attribute [local irreducible] Host.gather Host.scatterAdd

theorem V1_v9 (c : Dev nD) : V1 m ρ c main_v9 = nvec (m ((c : Thread nD τ).loc main_arg5)) (m ((c : Thread nD τ).loc main_arg8)) := by
  show StableHlo.after hostOps0 (W0 m ρ c) (Proc.devRef .tc main_v9) = _
  after_results
  unfold nvec
  rfl
theorem V1_v11 (c : Dev nD) : V1 m ρ c main_v11 = evec (m ((c : Thread nD τ).loc main_arg6)) (m ((c : Thread nD τ).loc main_arg9)) := by
  show StableHlo.after hostOps0 (W0 m ρ c) (Proc.devRef .tc main_v11) = _
  after_results
  unfold evec
  rfl

theorem V1_v7 (c : Dev nD) : V1 m ρ c main_v7
    = bias2 (m ((c : Thread nD τ).loc main_arg2)) (m ((c : Thread nD τ).loc main_arg7)) (m ((c : Thread nD τ).loc main_arg8)) (m ((c : Thread nD τ).loc main_arg9)) := by
  show StableHlo.after hostOps0 (W0 m ρ c) (Proc.devRef .tc main_v7) = _
  after_results
  unfold bias2 gbias
  rfl

/-- The segment-id argument is no window of the first region and no host operation writes it: at the first region's exit
    it still holds what was launched. -/
private theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) :=
          StableHlo.after_of_forall_not_mem (b := Proc.devRef .tc main_arg4) hostOps0 _ (by unwritten)
    _ = m ((c : Thread nD τ).loc main_arg4) := rfl

theorem V3_v28 (c : Dev nD) : V3 m ρ c main_v28
    = broadcastInDim S1000000x1 ![0] Facts₀.bcast_S1000000_S1000000x1_0
        (den (shapeCast S1000000 ((dat0 (F := Ideal) (V1 m ρ) c).arrAt 5 cfg0.N) Facts₀.shapeCasts_S1000000x1_S1000000)
          (m ((c : Thread nD τ).loc main_arg4))) := by
  have h5 : W2 m ρ c (Proc.devRef .tc main_v12_0) = (dat0 (F := Ideal) (V1 m ρ) c).arrAt 5 cfg0.N := W2_arr m ρ c 5
  have h4 := W2_arg4 m ρ c
  show StableHlo.after hostOps1 (W2 m ρ c) (Proc.devRef .tc main_v28) = _
  after_results_simp
  rw [h5, h4]
  generalize (dat0 (F := Ideal) (V1 m ρ) c).arrAt 5 cfg0.N = A
  generalize m ((c : Thread nD τ).loc main_arg4) = seg
  unfold den
  rfl

theorem V3_v36 (c : Dev nD) : V3 m ρ c main_v36
    = broadcastInDim S1000000x1 ![0] Facts₀.bcast_S1000000_S1000000x1_0
        (den (shapeCast S1000000 ((dat0 (F := Ideal) (V1 m ρ) c).arrAt 6 cfg0.N) Facts₀.shapeCasts_S1000000x1_S1000000)
          (m ((c : Thread nD τ).loc main_arg4))) := by
  have h6 : W2 m ρ c (Proc.devRef .tc main_v12_1) = (dat0 (F := Ideal) (V1 m ρ) c).arrAt 6 cfg0.N := W2_arr m ρ c 6
  have h4 := W2_arg4 m ρ c
  show StableHlo.after hostOps1 (W2 m ρ c) (Proc.devRef .tc main_v36) = _
  after_results_simp
  rw [h6, h4]
  generalize (dat0 (F := Ideal) (V1 m ρ) c).arrAt 6 cfg0.N = A
  generalize m ((c : Thread nD τ).loc main_arg4) = seg
  unfold den
  rfl

end Cert.KernelIdeal.Hand

end
-- ==== Proof.RValue.lean ====
/-
  The reference's score of a row, read: the activation of the graph bias plus the sum over the 64 projected features of
  (the row's dot product with a column of the weight matrix) times the feature half of the attention vector.
-/
import proofs.«406015_j68745246540453_1_alg».proof.Proof.RDefs
import proofs.«406015_j68745246540453_1_alg».proof.Proof.Spec
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open scoped BigOperators

namespace Cert.ReferenceIdeal.Hand
open Cert.ReferenceIdeal Cert.AttnSpec

/-- the score at a row is the scalar activation of the pre-activation at that row -/
private theorem score_apply (z : FVec Ideal S1000000 .f32) (i : S1000000.Idx) : score z i = act (z i) := rfl

/-- the column [1000000, 1] read as a vector: entry r is entry (r, 0) -/
private theorem cast_col_apply (v : FVec Ideal S1000000x1 .f32) (h : S1000000x1.ShapeCasts S1000000) (r : Fin 1000000) :
    shapeCast S1000000 v h (ix1 r) = v (ix2 r 0) := by
  apply shapeCast_apply
  rw [Shape.rowMajor_val_two, Shape.rowMajor_val_one]
  simp

/-- a 1×1 array broadcast to a column reads its one entry everywhere -/
private theorem bcast_one_apply (b : FVec Ideal S1x1 .f32) (h : S1x1.BroadcastsInDim S1000000x1 (![0, 1] : Fin 2 → Fin S1000000x1.rank))
    (j : S1000000x1.Idx) : broadcastInDim S1000000x1 ![0, 1] h b j = b (ix2 0 0) := by
  apply broadcastInDim_apply
  intro a
  match a with
  | ⟨0, _⟩ => rfl
  | ⟨1, _⟩ => rfl

/-- the lower half of the attention vector: entry (j, 0) of the slice at row offset 64 is entry (64 + j, 0) -/
private theorem slice_apply (a : FVec Ideal S128x1 .f32) (h : S128x1.Slices ![64, 0] S64x1) (j : Fin 64) :
    extractStridedSlice S64x1 ![64, 0] a h (ix2 j 0) = a (ix2 ⟨64 + j.val, by omega⟩ 0) := by
  unfold extractStridedSlice
  refine congrArg a (Shape.idx_ext₂ ?_ ?_)
  · rfl
  · rfl

/-- the dimension numbers of the product of the projected features with a column -/
private abbrev dotCol := dot_S1000000x64_S64x1_S1000000x1_1_0_0_1_n_n

/-- the operand indices of that product at result index j and contraction index k: (j 0, k) and (k, j 1) -/
private theorem lhs_0 (j : S1000000x1.Idx) (k : dotCol.contr.Idx) : (dotCol.lhsIdx j k 0).val = (j 0).val := rfl
private theorem lhs_1 (j : S1000000x1.Idx) (k : dotCol.contr.Idx) : (dotCol.lhsIdx j k 1).val = (k ⟨0, by decide⟩).val := rfl
private theorem rhs_0 (j : S1000000x1.Idx) (k : dotCol.contr.Idx) : (dotCol.rhsIdx j k 0).val = (k ⟨0, by decide⟩).val := rfl
private theorem rhs_1 (j : S1000000x1.Idx) (k : dotCol.contr.Idx) : (dotCol.rhsIdx j k 1).val = (j 1).val := rfl

/-- the product with a column, read at row r: the sum over the 64 features -/
private theorem dot_col_apply (h : FVec Ideal S1000000x64 .f32) (a' : FVec Ideal S64x1 .f32) (r : Fin 1000000) :
    Host.dotGeneral (F := Ideal) dotCol none h a' (ix2 r 0) = ∑ j : Fin 64, h (ix2 r j) * a' (ix2 j 0) := by
  show FloatOps.dotGeneral dotCol none .single h a' (ix2 r 0) = _
  rw [Ideal.dotGeneral_apply]
  rw [← Equiv.sum_comp (contrEquiv1 dotCol 64 rfl rfl).symm]
  refine Finset.sum_congr rfl fun j _ => ?_
  have hk := contrEquiv1_symm_val dotCol 64 rfl rfl j
  congr 2
  · exact Shape.idx_ext₂ (lhs_0 _ _) ((lhs_1 _ _).trans hk)
  · exact Shape.idx_ext₂ ((rhs_0 _ _).trans hk) (rhs_1 _ _)

/-- the score of row r, read: the activation of bias + the double sum -/
theorem score_preact_apply {K : Nat} (d : DotDims ⟨2, ![1000000, K]⟩ ⟨2, ![K, 64]⟩ S1000000x64)
    (x : FVec Ideal ⟨2, ![1000000, K]⟩ .f32) (W : FVec Ideal ⟨2, ![K, 64]⟩ .f32) (b : FVec Ideal S1x1 .f32) (a : FVec Ideal S128x1 .f32)
    (hd : ∀ (p : Fin 1000000) (q : Fin 64), Host.dotGeneral (F := Ideal) d none x W (ix2 p q) = ∑ k : Fin K, x (ix2 p k) * W (ix2 k q))
    (r : Fin 1000000) :
    score (preact (Host.dotGeneral (F := Ideal) d none x W) b a) (ix1 r)
      = act (b (ix2 0 0) + ∑ j : Fin 64, (∑ k : Fin K, x (ix2 r k) * W (ix2 k j)) * a (ix2 ⟨64 + j.val, by omega⟩ 0)) := by
  rw [score_apply]
  congr 1
  unfold preact
  rw [cast_col_apply, addf_apply, bcast_one_apply]
  congr 1
  show Host.dotGeneral (F := Ideal) dotCol none _ _ (ix2 r 0) = _
  rw [dot_col_apply]
  refine Finset.sum_congr rfl fun j _ => ?_
  rw [hd r j, slice_apply]

end Cert.ReferenceIdeal.Hand

end
-- ==== Proof.Layout.lean ====
/-
  Small facts about re-laid arrays, read at an index: a column [N, 1] reshaped to a vector [N] and back as a broadcast,
  a column [K, 1] reshaped to a row [1, K], two 1×1 arrays side by side, and the lower half of a [128, 1] column.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Proof.Layout

variable {α : Type}

/-- Entry r of the vector a column reshapes to is the column's entry (r, 0): both sit at row-major position r. -/
theorem shapeCast_col_apply {N : Nat} (x : (⟨2, ![N, 1]⟩ : Shape).Idx → α)
    (h : (⟨2, ![N, 1]⟩ : Shape).ShapeCasts ⟨1, ![N]⟩) (r : Fin N) :
    shapeCast ⟨1, ![N]⟩ x h (ix1 r) = x (ix2 r 0) :=
  shapeCast_apply x h (ix1 r) (ix2 r 0) (by
    rw [Shape.rowMajor_val_two, Shape.rowMajor_val_one]
    show r.val * 1 + 0 = r.val
    omega)

/-- Entry (0, k) of the row a column reshapes to is the column's entry (k, 0): both sit at row-major position k. -/
theorem shapeCast_row_apply {K : Nat} (y : (⟨2, ![K, 1]⟩ : Shape).Idx → α)
    (h : (⟨2, ![K, 1]⟩ : Shape).ShapeCasts ⟨2, ![1, K]⟩) (k : Fin K) :
    shapeCast ⟨2, ![1, K]⟩ y h (ix2 0 k) = y (ix2 k 0) :=
  shapeCast_apply y h (ix2 0 k) (ix2 k 0) (by
    rw [Shape.rowMajor_val_two, Shape.rowMajor_val_two]
    show k.val * 1 + 0 = 0 * K + k.val
    omega)

/-- A vector of a million rows broadcast along axis 0 of a column: entry (r, 0) is the vector's entry r. -/
theorem bcast_col_apply (x : (⟨1, ![1000000]⟩ : Shape).Idx → α)
    (h : (⟨1, ![1000000]⟩ : Shape).BroadcastsInDim ⟨2, ![1000000, 1]⟩ (![0] : Fin 1 → Fin 2)) (r : Fin 1000000) :
    broadcastInDim ⟨2, ![1000000, 1]⟩ ![0] h x (ix2 r 0) = x (ix1 r) :=
  broadcastInDim_apply ![0] h x (ix2 r 0) (ix1 r) (fun a => by
    match a with
    | ⟨0, _⟩ =>
      show r.val = if (1000000 : Nat) = 1 then 0 else r.val
      rw [if_neg (by decide)])

/-- The lower half of a column of 128: entry (j, 0) of the slice at row 64 is the column's entry (64 + j, 0). -/
theorem slice_lower_apply (a : (⟨2, ![128, 1]⟩ : Shape).Idx → α)
    (h : (⟨2, ![128, 1]⟩ : Shape).Slices ![64, 0] ⟨2, ![64, 1]⟩) (j : Fin 64) :
    extractStridedSlice ⟨2, ![64, 1]⟩ ![64, 0] a h (ix2 j 0) = a (ix2 ⟨64 + j.val, by omega⟩ 0) :=
  extractStridedSlice_apply ![64, 0] a h (ix2 j 0) (ix2 ⟨64 + j.val, by omega⟩ 0) (fun b => by
    match b with
    | ⟨0, _⟩ => rfl
    | ⟨1, _⟩ => rfl)

/-- Two 1×1 arrays side by side: the entry (0, 0) is the first's. -/
theorem pair_left_apply (x₁ x₂ : (⟨2, ![1, 1]⟩ : Shape).Idx → α)
    (h : Shape.Concatenates [(⟨2, ![1, 1]⟩ : Shape), ⟨2, ![1, 1]⟩] ⟨2, ![1, 2]⟩ 1) :
    concatenate ⟨2, ![1, 2]⟩ 1 [⟨⟨2, ![1, 1]⟩, x₁⟩, ⟨⟨2, ![1, 1]⟩, x₂⟩] h (ix2 0 0) = x₁ (ix2 0 0) :=
  concatenate_pair_apply_left 1 x₁ x₂ h (ix2 0 0) rfl (ix2 0 0) (fun b => by
    match b with
    | ⟨0, _⟩ => rfl
    | ⟨1, _⟩ => rfl)

/-- Two 1×1 arrays side by side: the entry (0, 1) is the second's. -/
theorem pair_right_apply (x₁ x₂ : (⟨2, ![1, 1]⟩ : Shape).Idx → α)
    (h : Shape.Concatenates [(⟨2, ![1, 1]⟩ : Shape), ⟨2, ![1, 1]⟩] ⟨2, ![1, 2]⟩ 1) :
    concatenate ⟨2, ![1, 2]⟩ 1 [⟨⟨2, ![1, 1]⟩, x₁⟩, ⟨⟨2, ![1, 1]⟩, x₂⟩] h (ix2 0 1) = x₂ (ix2 0 0) :=
  concatenate_pair_apply_right 1 x₁ x₂ h (ix2 0 1) rfl rfl (ix2 0 0) (fun b hb => by
    match b with
    | ⟨0, _⟩ => rfl
    | ⟨1, _⟩ => exact absurd rfl hb) rfl

end Cert.Proof.Layout

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Bridge.lean ====
/-
  The bridge between the two programs, over the extended reals.
  Both compute, for every row r, the score s_r = act(b + Σ_j (Σ_k x_rk W_kj) a_j) — the kernel with the double sum
  associated the other way, Σ_k x_rk (Σ_j W_kj a_j), the inner sums folded once into a projection row before the first
  region — and then the same normalisation s_r / (Σ over the rows of r's segment), computed by the same host operations.
  For finite inputs the two associations of the double sum agree, so the score columns agree row by row; the
  normalisation is one function of the scores and the segment ids on both sides.
-/
import proofs.«406015_j68745246540453_1_alg».proof.Proof.KReg0
import proofs.«406015_j68745246540453_1_alg».proof.Proof.KReg1
import proofs.«406015_j68745246540453_1_alg».proof.Proof.KHost
import proofs.«406015_j68745246540453_1_alg».proof.Proof.RValue
import proofs.«406015_j68745246540453_1_alg».proof.Proof.Layout
import proofs.«406015_j68745246540453_1_alg».proof.Proof.LibRowDims

set_option maxRecDepth 16384

noncomputable section

open Idealize.ShloMosaic Idealize.ShloMosaic.TcCoe Idealize.SL.Sem Idealize.ShloMosaic.ValueIdx
open Idealize.ShloMosaic.RowDims
open scoped BigOperators

namespace Cert.Proof.Bridge

open Cert.AttnSpec Cert.Proof.Layout

/-! ## The contractions, read as sums -/

/-- The node features times the node weights, entry (p, q): the sum over the 64 input features. -/
theorem dot_node (x : FVec Ideal ⟨2, ![1000000, 64]⟩ .f32) (W : FVec Ideal ⟨2, ![64, 64]⟩ .f32) (p : Fin 1000000) (q : Fin 64) :
    Host.dotGeneral (F := Ideal) Cert.ReferenceIdeal.dot_S1000000x64_S64x64_S1000000x64_1_0_0_1_n_n none x W (ix2 p q)
      = ∑ k : Fin 64, x (ix2 p k) * W (ix2 k q) :=
  dotGeneral_plain_apply (M := 1000000) (K := 64) (N := 64) none .single x W p q

/-- The edge matrix times the edge weights, entry (p, q): the sum over the 16 input features. -/
theorem dot_edge (x : FVec Ideal ⟨2, ![1000000, 16]⟩ .f32) (W : FVec Ideal ⟨2, ![16, 64]⟩ .f32) (p : Fin 1000000) (q : Fin 64) :
    Host.dotGeneral (F := Ideal) Cert.ReferenceIdeal.dot_S1000000x16_S16x64_S1000000x64_1_0_0_1_n_n none x W (ix2 p q)
      = ∑ k : Fin 16, x (ix2 p k) * W (ix2 k q) :=
  dotGeneral_plain_apply (M := 1000000) (K := 16) (N := 64) none .single x W p q

/-- Entry k of the node projection row: row k of the node weights against the node half of the attention vector. -/
theorem nvec_apply (W : FVec Ideal ⟨2, ![64, 64]⟩ .f32) (a : FVec Ideal ⟨2, ![128, 1]⟩ .f32) (k : Fin 64) :
    Cert.KernelIdeal.Hand.nvec W a (ix2 0 k) = ∑ j : Fin 64, W (ix2 k j) * a (ix2 ⟨64 + j.val, by omega⟩ 0) := by
  unfold Cert.KernelIdeal.Hand.nvec
  refine (shapeCast_row_apply (K := 64) _ _ k).trans ?_
  refine (dotGeneral_plain_apply (M := 64) (K := 64) (N := 1) none .single W _ k 0).trans ?_
  exact Finset.sum_congr rfl fun j _ => congrArg (W (ix2 k j) * ·) (slice_lower_apply a _ j)

/-- Entry k of the edge projection row: row k of the edge weights against the edge half of the attention vector. -/
theorem evec_apply (W : FVec Ideal ⟨2, ![16, 64]⟩ .f32) (a : FVec Ideal ⟨2, ![128, 1]⟩ .f32) (k : Fin 16) :
    Cert.KernelIdeal.Hand.evec W a (ix2 0 k) = ∑ j : Fin 64, W (ix2 k j) * a (ix2 ⟨64 + j.val, by omega⟩ 0) := by
  unfold Cert.KernelIdeal.Hand.evec
  refine (shapeCast_row_apply (K := 16) _ _ k).trans ?_
  refine (dotGeneral_plain_apply (M := 16) (K := 64) (N := 1) none .single W _ k 0).trans ?_
  exact Finset.sum_congr rfl fun j _ => congrArg (W (ix2 k j) * ·) (slice_lower_apply a _ j)

/-! ## The two programs spell the shared host values with their own records: the same values -/

theorem den_eq (s : FVec Ideal ⟨1, ![1000000]⟩ .f32) (seg : IVec ⟨1, ![1000000]⟩ 32) :
    Cert.KernelIdeal.Hand.den s seg = Cert.ReferenceIdeal.Hand.den s seg := rfl

theorem gbias_eq (g : FVec Ideal ⟨2, ![1, 32]⟩ .f32) (Wg : FVec Ideal ⟨2, ![32, 64]⟩ .f32) (a : FVec Ideal ⟨2, ![128, 1]⟩ .f32) :
    Cert.KernelIdeal.Hand.gbias g Wg a = Cert.ReferenceIdeal.Hand.gbias g Wg a := rfl

/-! ## The score columns agree, row by row -/

/-- Node scores: the kernel's column of row scores, reshaped to a vector, is the reference's score vector. -/
theorem score_node_eq (X : FVec Ideal ⟨2, ![1000000, 64]⟩ .f32) (W : FVec Ideal ⟨2, ![64, 64]⟩ .f32)
    (g : FVec Ideal ⟨2, ![1, 32]⟩ .f32) (Wg : FVec Ideal ⟨2, ![32, 64]⟩ .f32) (a8 a9 : FVec Ideal ⟨2, ![128, 1]⟩ .f32)
    (hX : ∀ i, Fin' (X i)) (hW : ∀ i, Fin' (W i)) (ha : ∀ i, Fin' (a8 i))
    (h : (⟨2, ![1000000, 1]⟩ : Shape).ShapeCasts ⟨1, ![1000000]⟩) :
    shapeCast ⟨1, ![1000000]⟩ (rowScore (K := 64) X (Cert.KernelIdeal.Hand.nvec W a8) (Cert.KernelIdeal.Hand.bias2 g Wg a8 a9) 0) h
      = Cert.ReferenceIdeal.Hand.score (Cert.ReferenceIdeal.Hand.preact
          (Host.dotGeneral (F := Ideal) Cert.ReferenceIdeal.dot_S1000000x64_S64x64_S1000000x64_1_0_0_1_n_n none X W)
          (Cert.ReferenceIdeal.Hand.gbias g Wg a8) a8) := by
  funext i
  obtain ⟨r, rfl⟩ : ∃ r : Fin 1000000, i = ix1 r := ⟨i 0, eq_ix1 i⟩
  refine (shapeCast_col_apply _ h r).trans ?_
  refine Eq.trans ?_ (Cert.ReferenceIdeal.Hand.score_preact_apply (K := 64) _ X W _ a8 (dot_node X W) r).symm
  show act ((∑ k : Fin 64, X (ix2 r k) * Cert.KernelIdeal.Hand.nvec W a8 (ix2 0 k))
      + Cert.KernelIdeal.Hand.bias2 g Wg a8 a9 (ix2 0 0)) = _
  refine congrArg act ?_
  rw [add_comm]
  refine congrArg₂ (· + ·) ?_ ?_
  · -- the bias: the first of the two side by side
    unfold Cert.KernelIdeal.Hand.bias2
    exact (pair_left_apply _ _ _).trans (congrFun (gbias_eq g Wg a8) _)
  · -- the double sum, associated the other way
    simp only [nvec_apply]
    exact (sum_reassoc (fun k => X (ix2 r k)) (fun k j => W (ix2 k j)) (fun j => a8 (ix2 ⟨64 + j.val, by omega⟩ 0))
      (fun k => hX _) (fun k j => hW _) (fun j => ha _)).symm

/-- Edge scores: the same, over the 16 edge features, with the second of the two biases. -/
theorem score_edge_eq (X : FVec Ideal ⟨2, ![1000000, 16]⟩ .f32) (W : FVec Ideal ⟨2, ![16, 64]⟩ .f32)
    (g : FVec Ideal ⟨2, ![1, 32]⟩ .f32) (Wg : FVec Ideal ⟨2, ![32, 64]⟩ .f32) (a8 a9 : FVec Ideal ⟨2, ![128, 1]⟩ .f32)
    (hX : ∀ i, Fin' (X i)) (hW : ∀ i, Fin' (W i)) (ha : ∀ i, Fin' (a9 i))
    (h : (⟨2, ![1000000, 1]⟩ : Shape).ShapeCasts ⟨1, ![1000000]⟩) :
    shapeCast ⟨1, ![1000000]⟩ (rowScore (K := 16) X (Cert.KernelIdeal.Hand.evec W a9) (Cert.KernelIdeal.Hand.bias2 g Wg a8 a9) 1) h
      = Cert.ReferenceIdeal.Hand.score (Cert.ReferenceIdeal.Hand.preact
          (Host.dotGeneral (F := Ideal) Cert.ReferenceIdeal.dot_S1000000x16_S16x64_S1000000x64_1_0_0_1_n_n none X W)
          (Cert.ReferenceIdeal.Hand.gbias g Wg a9) a9) := by
  funext i
  obtain ⟨r, rfl⟩ : ∃ r : Fin 1000000, i = ix1 r := ⟨i 0, eq_ix1 i⟩
  refine (shapeCast_col_apply _ h r).trans ?_
  refine Eq.trans ?_ (Cert.ReferenceIdeal.Hand.score_preact_apply (K := 16) _ X W _ a9 (dot_edge X W) r).symm
  show act ((∑ k : Fin 16, X (ix2 r k) * Cert.KernelIdeal.Hand.evec W a9 (ix2 0 k))
      + Cert.KernelIdeal.Hand.bias2 g Wg a8 a9 (ix2 0 1)) = _
  refine congrArg act ?_
  rw [add_comm]
  refine congrArg₂ (· + ·) ?_ ?_
  · unfold Cert.KernelIdeal.Hand.bias2
    exact (pair_right_apply _ _ _).trans (congrFun (gbias_eq g Wg a9) _)
  · simp only [evec_apply]
    exact (sum_reassoc (fun k => X (ix2 r k)) (fun k j => W (ix2 k j)) (fun j => a9 (ix2 ⟨64 + j.val, by omega⟩ 0))
      (fun k => hX _) (fun k j => hW _) (fun j => ha _)).symm

/-! ## The normalisation is one function of the scores -/

/-- A column of quotients, read at an index. -/
theorem quot_apply (s d : (⟨2, ![1000000, 1]⟩ : Shape).Idx → EReal) (j : (⟨2, ![1000000, 1]⟩ : Shape).Idx) :
    quot s d j = Ideal.div (s j) (d j) := rfl

/-- The host's quotient of two vectors, read at an index: the same division of extended reals. -/
theorem hostDivf_apply {s : Shape} (x y : FVec Ideal s .f32) (i : s.Idx) :
    Host.divf x y i = Ideal.div (x i) (y i) := rfl

/-- A score column divided, row by row, by its per-segment sums gathered back and laid out as a column, then reshaped
    to a vector, is the score vector divided by its gathered per-segment sums. -/
theorem norm_eq (sK : (⟨2, ![1000000, 1]⟩ : Shape).Idx → EReal) (sR : FVec Ideal ⟨1, ![1000000]⟩ .f32) (seg : IVec ⟨1, ![1000000]⟩ 32)
    (h : (⟨2, ![1000000, 1]⟩ : Shape).ShapeCasts ⟨1, ![1000000]⟩)
    (hb : (⟨1, ![1000000]⟩ : Shape).BroadcastsInDim ⟨2, ![1000000, 1]⟩ (![0] : Fin 1 → Fin 2))
    (hs : shapeCast ⟨1, ![1000000]⟩ sK h = sR) :
    shapeCast ⟨1, ![1000000]⟩ (quot sK (broadcastInDim ⟨2, ![1000000, 1]⟩ ![0] hb
        (Cert.KernelIdeal.Hand.den (shapeCast ⟨1, ![1000000]⟩ sK h) seg))) h
      = Host.divf sR (Cert.ReferenceIdeal.Hand.den sR seg) := by
  subst hs
  funext i
  obtain ⟨r, rfl⟩ : ∃ r : Fin 1000000, i = ix1 r := ⟨i 0, eq_ix1 i⟩
  refine (shapeCast_col_apply _ h r).trans ?_
  -- one spelling of the gathered sums, then a name for them: the quotient never looks inside
  rw [den_eq]
  generalize Cert.ReferenceIdeal.Hand.den (shapeCast ⟨1, ![1000000]⟩ sK h) seg = D
  generalize hS : shapeCast ⟨1, ![1000000]⟩ sK h = S
  rw [quot_apply, hostDivf_apply, bcast_col_apply, ← hS, shapeCast_col_apply]

/-! ## The kernel program's two results are the reference's functions of the arguments -/

section Results
open Cert.KernelIdeal Cert.KernelIdeal.Gen

variable (m : (ℓ : Loc nD τ sig) → Buf (Elt Ideal) ℓ) (ρ : Dev nD → PrngReg)

theorem kernel_node (c : Dev nD)
    (hX : ∀ i, Fin' (m ((c : Thread nD τ).loc main_arg0) i)) (hW : ∀ i, Fin' (m ((c : Thread nD τ).loc main_arg5) i))
    (ha : ∀ i, Fin' (m ((c : Thread nD τ).loc main_arg8) i)) :
    W5 m ρ c (Proc.devRef .tc main_v38)
      = Cert.ReferenceIdeal.Hand.nodeOut (m ((c : Thread nD τ).loc main_arg0)) (m ((c : Thread nD τ).loc main_arg5))
          (m ((c : Thread nD τ).loc main_arg2)) (m ((c : Thread nD τ).loc main_arg7)) (m ((c : Thread nD τ).loc main_arg8))
          (m ((c : Thread nD τ).loc main_arg4)) := by
  rw [Hand.W5_v38, Hand.reg1_4, Hand.V3_v12_0, Hand.V3_v28, Hand.reg0_5, Hand.V1_arg0, Hand.V1_v9, Hand.V1_v7]
  unfold Cert.ReferenceIdeal.Hand.nodeOut
  exact norm_eq _ _ _ _ _ (score_node_eq _ _ _ _ _ _ hX hW ha _)

theorem kernel_edge (c : Dev nD)
    (hX : ∀ i, Fin' (m ((c : Thread nD τ).loc main_arg3) i)) (hW : ∀ i, Fin' (m ((c : Thread nD τ).loc main_arg6) i))
    (ha : ∀ i, Fin' (m ((c : Thread nD τ).loc main_arg9) i)) :
    W5 m ρ c (Proc.devRef .tc main_v39)
      = Cert.ReferenceIdeal.Hand.edgeOut (m ((c : Thread nD τ).loc main_arg3)) (m ((c : Thread nD τ).loc main_arg6))
          (m ((c : Thread nD τ).loc main_arg2)) (m ((c : Thread nD τ).loc main_arg7)) (m ((c : Thread nD τ).loc main_arg9))
          (m ((c : Thread nD τ).loc main_arg4)) := by
  rw [Hand.W5_v39, Hand.reg1_5, Hand.V3_v12_1, Hand.V3_v36, Hand.reg0_6, Hand.V1_arg3, Hand.V1_v11, Hand.V1_v7]
  unfold Cert.ReferenceIdeal.Hand.edgeOut
  exact norm_eq _ _ _ _ _ (score_edge_eq _ _ _ _ _ _ hX hW ha _)

end Results

end Cert.Proof.Bridge

end
-- ==== Proof.lean ====
/-
  The certificate of the graph-attention head: two Pallas regions (row scores; normalisation) around a host segment sum
  against the plain reference.
  Frames: the kernel program's, at the word level and over the extended reals, are the generated two-region launches; the
  reference is a straight line of host operations, so it runs to the fold of its operations and leaves its arguments.
  Preserves: the idealisation rewrote nothing.
  Algebraic: under the precondition every multiplied input is a real number, so the kernel's folded projection
  Σ_k x_rk (Σ_j W_kj a_j) is the reference's Σ_j (Σ_k x_rk W_kj) a_j row by row; the activation and the per-segment
  normalisation are the same functions on both sides; both results are the reference's named functions of the arguments.
-/
import proofs.«406015_j68745246540453_1_alg».proof.Defs
import proofs.«406015_j68745246540453_1_alg».proof.Proof.Gen.Kernel
import proofs.«406015_j68745246540453_1_alg».proof.Proof.Gen.Kernel.Skeleton
import proofs.«406015_j68745246540453_1_alg».proof.Proof.Gen.Kernel.Launch
import proofs.«406015_j68745246540453_1_alg».proof.Proof.Gen.Kernel.Points
import proofs.«406015_j68745246540453_1_alg».proof.Proof.Gen.Kernel.Frame
import proofs.«406015_j68745246540453_1_alg».proof.Proof.Gen.KernelIdeal
import proofs.«406015_j68745246540453_1_alg».proof.Proof.Gen.KernelIdeal.Skeleton
import proofs.«406015_j68745246540453_1_alg».proof.Proof.Gen.KernelIdeal.Launch
import proofs.«406015_j68745246540453_1_alg».proof.Proof.Gen.KernelIdeal.Points
import proofs.«406015_j68745246540453_1_alg».proof.Proof.Gen.KernelIdeal.Frame
import proofs.«406015_j68745246540453_1_alg».proof.Proof.Gen.ReferenceIdeal
import proofs.«406015_j68745246540453_1_alg».proof.Proof.Gen.Pre_finite_inputs
import proofs.«406015_j68745246540453_1_alg».proof.Proof.KRun
import proofs.«406015_j68745246540453_1_alg».proof.Proof.RRun
import proofs.«406015_j68745246540453_1_alg».proof.Proof.Finite
import proofs.«406015_j68745246540453_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments: the generated launch of its two regions. -/
theorem frame_k : Cert.frame_Kernel := fun m ρ _ => Cert.Kernel.Gen.frame m ρ

/-- The same over the extended reals. -/
theorem frame_ki : Cert.frame_KernelIdeal := fun m ρ _ => Cert.KernelIdeal.Gen.frame m ρ

/-- The reference runs to the fold of its operations, which writes no argument. -/
theorem frame_ri : Cert.frame_ReferenceIdeal := fun m ρ _ =>
  (θ_run (Cert.ReferenceIdeal.defs (F := Ideal)) _ _).mono (fun r h c =>
    ⟨(h c _).trans (Cert.ReferenceIdeal.Hand.arg0_eq _),
     (h c _).trans (Cert.ReferenceIdeal.Hand.arg1_eq _),
     (h c _).trans (Cert.ReferenceIdeal.Hand.arg2_eq _),
     (h c _).trans (Cert.ReferenceIdeal.Hand.arg3_eq _),
     (h c _).trans (Cert.ReferenceIdeal.Hand.arg4_eq _),
     (h c _).trans (Cert.ReferenceIdeal.Hand.arg5_eq _),
     (h c _).trans (Cert.ReferenceIdeal.Hand.arg6_eq _),
     (h c _).trans (Cert.ReferenceIdeal.Hand.arg7_eq _),
     (h c _).trans (Cert.ReferenceIdeal.Hand.arg8_eq _),
     (h c _).trans (Cert.ReferenceIdeal.Hand.arg9_eq _)⟩)
    (Cert.ReferenceIdeal.Hand.run_main m ρ)

/-- Both programs end, on arguments that agree, with the reference's normalized node and edge scores. -/
theorem algebraic : Cert.algebraic_KernelIdeal_ReferenceIdeal := by
  intro m ρ m' ρ' hpre hagree
  refine ⟨fun c => Cert.ReferenceIdeal.Hand.nodeOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg4)),
    fun c => Cert.ReferenceIdeal.Hand.edgeOut
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg4)), ?_, ?_⟩
  · -- the kernel program: the named run, each result read through the regions and the host stretches
    refine (θ_run (Cert.KernelIdeal.defs (F := Ideal)) _ _).mono (fun r h c => ?_)
      (Cert.KernelIdeal.Gen.run_named (F := Ideal) m ρ)
    obtain ⟨h38, h39, hargs⟩ := h c
    obtain ⟨f0, f3, f5, f6, f8, f9⟩ := Cert.Proof.Finite.finite_of_pre _ _ _ _ _ _ _ _ _ _ (hpre c)
    exact ⟨h38.trans (Bridge.kernel_node m ρ c f0 f5 f8), h39.trans (Bridge.kernel_edge m ρ c f3 f6 f9), hargs⟩
  · -- the reference: its run, read at the two results, on arguments that agree with the kernel program's
    refine (θ_run (Cert.ReferenceIdeal.defs (F := Ideal)) _ _).mono (fun r h c => ?_)
      (Cert.ReferenceIdeal.Hand.run_main m' ρ')
    obtain ⟨e0, e1, e2, e3, e4, e5, e6, e7, e8, e9⟩ := hagree c
    refine ⟨?_, ?_, (h c _).trans (Cert.ReferenceIdeal.Hand.arg0_eq _),
      (h c _).trans (Cert.ReferenceIdeal.Hand.arg1_eq _),
      (h c _).trans (Cert.ReferenceIdeal.Hand.arg2_eq _),
      (h c _).trans (Cert.ReferenceIdeal.Hand.arg3_eq _),
      (h c _).trans (Cert.ReferenceIdeal.Hand.arg4_eq _),
      (h c _).trans (Cert.ReferenceIdeal.Hand.arg5_eq _),
      (h c _).trans (Cert.ReferenceIdeal.Hand.arg6_eq _),
      (h c _).trans (Cert.ReferenceIdeal.Hand.arg7_eq _),
      (h c _).trans (Cert.ReferenceIdeal.Hand.arg8_eq _),
      (h c _).trans (Cert.ReferenceIdeal.Hand.arg9_eq _)⟩
    · refine (h c _).trans ((Cert.ReferenceIdeal.Hand.out31_eq _).trans ?_)
      show Cert.ReferenceIdeal.Hand.nodeOut
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg4)) = _
      rw [e0, e5, e2, e7, e8, e4]
    · refine (h c _).trans ((Cert.ReferenceIdeal.Hand.out44_eq _).trans ?_)
      show Cert.ReferenceIdeal.Hand.edgeOut
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg4)) = _
      rw [e3, e6, e2, e7, e9, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
